-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64 : Shape := ⟨2, ![64, 64]⟩
abbrev S65536x64 : Shape := ⟨2, ![65536, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_

variable [Facts]

def fn {F : FTy → Type} [FloatOps F] (main_arg0 : FVec F S64x64 .f32) (main_arg1 : FVec F S65536x64 .f32) (main_arg2 : FVec F S65536x64 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S65536x64 .f32 := Host.absf main_arg2
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  main_v13
-- ==== Kernel.lean ====
abbrev S64x64 : Shape := ⟨2, ![64, 64]⟩
abbrev S65536x64 : Shape := ⟨2, ![65536, 64]⟩
abbrev S64x65536 : Shape := ⟨2, ![64, 65536]⟩
abbrev S4096x64 : Shape := ⟨2, ![4096, 64]⟩
abbrev S64x4096 : Shape := ⟨2, ![64, 4096]⟩
abbrev S16x64x4096 : Shape := ⟨3, ![16, 64, 4096]⟩
abbrev S64x1 : Shape := ⟨2, ![64, 1]⟩
abbrev S64 : Shape := ⟨1, ![64]⟩
abbrev S1x64 : Shape := ⟨2, ![1, 64]⟩
abbrev S1x4096 : Shape := ⟨2, ![1, 4096]⟩
abbrev S1x64x4096 : Shape := ⟨3, ![1, 64, 4096]⟩

abbrev nBuf : Space → Nat
  | .hbm => 5
  | .vmem => 11
  | .smem => 0
  | _ => 0

abbrev bufTy : (tb : Table) → Fin (tcTables nBuf tb) → BufTy
  | .hbm, ⟨0, _⟩ => ⟨S64x64, .f32⟩
  | .hbm, ⟨1, _⟩ => ⟨S65536x64, .f32⟩
  | .hbm, ⟨2, _⟩ => ⟨S65536x64, .f32⟩
  | .hbm, ⟨3, _⟩ => ⟨S64x65536, .f32⟩
  | .hbm, ⟨4, _⟩ => ⟨S64x64, .f32⟩
  | .local _ .vmem, ⟨0, _⟩ => ⟨S64x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S64x4096, .f32⟩
  | .local _ .vmem, ⟨6, _⟩ => ⟨S64x4096, .f32⟩
  | .local _ .vmem, ⟨7, _⟩ => ⟨S64x64, .f32⟩
  | .local _ .vmem, ⟨8, _⟩ => ⟨S16x64x4096, .f32⟩
  | .local _ .vmem, ⟨9, _⟩ => ⟨S64x1, .f32⟩
  | .local _ .vmem, ⟨10, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_1 : Ref sig .tc := ⟨.hbm, 3, rfl⟩
abbrev main_v0_0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v31 : Index := Scalar.indexCast arg1
  let c0_13 : Index := 0#32
  let c0_14 : Index := 0#32
  ![v31.toNat, 0, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off2 (i : grid0.Coords) : Fin 3 → Nat :=
  let arg1 : BitVec 32 := BitVec.ofNat 32 (i 1).val
  let v14 : Index := Scalar.indexCast arg1
  let c0_6 : Index := 0#32
  let c0_7 : Index := 0#32
  ![v14.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4096x64_S4096x64_0_0 : ∀ a, (![0, 0] : Fin 2 → Nat) a + S4096x64.size a ≤ S4096x64.size a
  h_S4096x64 : 0 < S4096x64.numel
  reduces_S64x64_S64 : S64x64.Reduces [1] S64
  shapeCasts_S64_S64x1 : S64.ShapeCasts S64x1
  broadcasts_S64x1_S64x4096 : S64x1.Broadcasts S64x4096
  broadcasts_S1x4096_S64x4096 : S1x4096.Broadcasts S64x4096
  h_S1x64x4096 : 0 < S1x64x4096.numel
  shapeCasts_S1x64x4096_S64x4096 : S1x64x4096.ShapeCasts S64x4096
  shapeCasts_S64x4096_S1x64x4096 : S64x4096.ShapeCasts S1x64x4096
  reduces_S64x4096_S64 : S64x4096.Reduces [1] S64
  inb_S64x4096_S64x4096_0_0 : ∀ a, (![0, 0] : Fin 2 → Nat) a + S64x4096.size a ≤ S64x4096.size a
  h_S64x4096 : 0 < S64x4096.numel
  broadcasts_S64x1_S64x64 : S64x1.Broadcasts S64x64
  dot_S64x64_S4096x64_S64x4096_1_1_0_0_n_n_wf : DotDims.WF S64x64 S4096x64 S64x4096 [1] [1] [0] [0] [] []
  dot_S1x64_S4096x64_S1x4096_1_1_0_0_n_n_wf : DotDims.WF S1x64 S4096x64 S1x4096 [1] [1] [0] [0] [] []
  dot_S64x4096_S4096x64_S64x64_1_0_0_1_n_n_wf : DotDims.WF S64x4096 S4096x64 S64x64 [1] [0] [0] [1] [] []
  hrank0 : 0 < grid0.rank
  k0_off1_inb : ∀ i : grid0.Coords, ∀ (k0_h2 : k0_cond2 i = 1#1), ∀ a, (k0_off1 i) a + S1x64x4096.size a ≤ S16x64x4096.size a
  k0_off2_inb : ∀ i : grid0.Coords, ∀ (k0_h3 : k0_cond3 i = 1#1), ∀ a, (k0_off2 i) a + S1x64x4096.size a ≤ S16x64x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .f32 = 32 ∨ (Rect.block (s := S64x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S65536x64.size a
  hwx0_1 : ∀ i : grid0.Coords, EltTy.bits .f32 = 32 ∨ (Rect.block (s := S65536x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x65536.size a
  hwx0_3 : ∀ i : grid0.Coords, EltTy.bits .f32 = 32 ∨ (Rect.block (s := S64x65536) S64x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)

variable [Facts₀]

def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf
def dot_S1x64_S4096x64_S1x4096_1_1_0_0_n_n : DotDims S1x64 S4096x64 S1x4096 where
  lhsContracting := [1]
  rhsContracting := [1]
  lhsNonContracting := [0]
  rhsNonContracting := [0]
  lhsBatch := []
  rhsBatch := []
  wf := dot_S1x64_S4096x64_S1x4096_1_1_0_0_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf

abbrev win0_0 : Pipeline.Window sig grid0 :=
  Pipeline.Window.ofSpec (Memref.whole main_arg0) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S64x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun i => !(k0_cond3 i == 1#1) | ⟨_ + 5, h⟩ => absurd h (Nat.not_lt.2 (Nat.le_add_left _ _))

class Facts : Prop extends Facts₀ where

variable [Facts]
-- ==== ReferenceIdeal.lean ====
abbrev S64x64 : Shape := ⟨2, ![64, 64]⟩
abbrev S65536x64 : Shape := ⟨2, ![65536, 64]⟩
abbrev S64x65536 : Shape := ⟨2, ![64, 65536]⟩
abbrev S_ : Shape := ⟨0, ![]⟩
abbrev S64 : Shape := ⟨1, ![64]⟩
abbrev S65536 : Shape := ⟨1, ![65536]⟩
abbrev S64x1 : Shape := ⟨2, ![64, 1]⟩
abbrev S1x65536 : Shape := ⟨2, ![1, 65536]⟩

abbrev nBuf : Space → Nat
  | .hbm => 40
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S65536x64, .f32⟩
  | .hbm, ⟨2, _⟩ => ⟨S65536x64, .f32⟩
  | .hbm, ⟨3, _⟩ => ⟨S64x65536, .f32⟩
  | .hbm, ⟨4, _⟩ => ⟨S64x65536, .f32⟩
  | .hbm, ⟨5, _⟩ => ⟨S64x64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S65536x64, .f32⟩
  | .hbm, ⟨10, _⟩ => ⟨S_, .f32⟩
  | .hbm, ⟨11, _⟩ => ⟨S65536, .f32⟩
  | .hbm, ⟨12, _⟩ => ⟨S65536, .f32⟩
  | .hbm, ⟨13, _⟩ => ⟨S64x1, .f32⟩
  | .hbm, ⟨14, _⟩ => ⟨S1x65536, .f32⟩
  | .hbm, ⟨15, _⟩ => ⟨S64x65536, .f32⟩
  | .hbm, ⟨16, _⟩ => ⟨S64x65536, .f32⟩
  | .hbm, ⟨17, _⟩ => ⟨S64x65536, .f32⟩
  | .hbm, ⟨18, _⟩ => ⟨S_, .f32⟩
  | .hbm, ⟨19, _⟩ => ⟨S64x65536, .f32⟩
  | .hbm, ⟨20, _⟩ => ⟨S64x65536, .f32⟩
  | .hbm, ⟨21, _⟩ => ⟨S64x65536, .f32⟩
  | .hbm, ⟨22, _⟩ => ⟨S_, .f32⟩
  | .hbm, ⟨23, _⟩ => ⟨S64x65536, .f32⟩
  | .hbm, ⟨24, _⟩ => ⟨S64x65536, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64x1, .f32⟩
  | .hbm, ⟨31, _⟩ => ⟨S64x65536, .f32⟩
  | .hbm, ⟨32, _⟩ => ⟨S64x65536, .f32⟩
  | .hbm, ⟨33, _⟩ => ⟨S64x65536, .f32⟩
  | .hbm, ⟨34, _⟩ => ⟨S_, .f32⟩
  | .hbm, ⟨35, _⟩ => ⟨S64, .f32⟩
  | .hbm, ⟨36, _⟩ => ⟨S64x1, .f32⟩
  | .hbm, ⟨37, _⟩ => ⟨S64x65536, .f32⟩
  | .hbm, ⟨38, _⟩ => ⟨S64x65536, .f32⟩
  | .hbm, ⟨39, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  transposes_S65536x64_S64x65536_1_0 : S65536x64.Transposes [1, 0] S64x65536
  reducesTo_S64x64_S64_d1 : S64x64.ReducesTo [1] S64
  h_S_ : 0 < S_.numel
  reducesTo_S65536x64_S65536_d1 : S65536x64.ReducesTo [1] S65536
  bcast_S64_S64x1_0 : S64.BroadcastsInDim S64x1 (![0] : Fin 1 → Fin S64x1.rank)
  bcast_S65536_S1x65536_1 : S65536.BroadcastsInDim S1x65536 (![1] : Fin 1 → Fin S1x65536.rank)
  bcast_S64x1_S64x65536_0_1 : S64x1.BroadcastsInDim S64x65536 (![0, 1] : Fin 2 → Fin S64x65536.rank)
  bcast_S1x65536_S64x65536_0_1 : S1x65536.BroadcastsInDim S64x65536 (![0, 1] : Fin 2 → Fin S64x65536.rank)
  bcast_S_S64x65536 : S_.BroadcastsInDim S64x65536 (![] : Fin 0 → Fin S64x65536.rank)
  reducesTo_S64x65536_S64_d1 : S64x65536.ReducesTo [1] S64
  bcast_S_S64 : S_.BroadcastsInDim S64 (![] : Fin 0 → Fin S64.rank)
  dot_S64x64_S64x65536_S64x65536_1_0_0_1_n_n_wf : DotDims.WF S64x64 S64x65536 S64x65536 [1] [0] [0] [1] [] []
  dot_S64x65536_S65536x64_S64x64_1_0_0_1_n_n_wf : DotDims.WF S64x65536 S65536x64 S64x64 [1] [0] [0] [1] [] []

variable [Facts₀]

def dot_S64x64_S64x65536_S64x65536_1_0_0_1_n_n : DotDims S64x64 S64x65536 S64x65536 where
  lhsContracting := [1]
  rhsContracting := [0]
  lhsNonContracting := [0]
  rhsNonContracting := [1]
  lhsBatch := []
  rhsBatch := []
  wf := dot_S64x64_S64x65536_S64x65536_1_0_0_1_n_n_wf
def dot_S64x65536_S65536x64_S64x64_1_0_0_1_n_n : DotDims S64x65536 S65536x64 S64x64 where
  lhsContracting := [1]
  rhsContracting := [0]
  lhsNonContracting := [0]
  rhsNonContracting := [1]
  lhsBatch := []
  rhsBatch := []
  wf := dot_S64x65536_S65536x64_S64x64_1_0_0_1_n_n_wf

class Facts : Prop extends Facts₀ where

variable [Facts]
-- ==== Proof.KB.Setup.lean ====
/-
  The grid of the one pallas_call is 2 × 16, walked row-major: points 0..15 are the first phase (every tile of the key
  and value tables is visited once: tile t at point t), points 16..31 the second (the stored exponentials are scaled
  and written out, slice t - 16 at point t). This module decides, over that grid, the three branches of the body
  (the reset at point 0, the accumulation in the first phase, the scaling in the second), where the two output windows
  are idle (the first phase) and when they are written back (the weights' at every point of the second phase, the
  retrieved values' at the last point), and names the staging and scratch memrefs the body is called with.
-/
import proofs.«109230_g9234179687032_cont_9to1c4b_825_2_alg».proof.Proof.Gen.Kernel.Frame
import proofs.«109230_g9234179687032_cont_9to1c4b_825_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three branches, decided over the grid -/

/-- The reset branch's condition (both coordinates zero), as the body computes it. -/
abbrev isFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The accumulation branch's condition (first coordinate zero). -/
abbrev isAccum (i : grid0.Coords) : Prop := k0_cond2 i = 1#1
/-- The scaling branch's condition (first coordinate one). -/
abbrev isScale (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isAccum_iff : ∀ t : Fin cfg0.N, isAccum (grid0.coords t) ↔ t.val < 16 :=
  (by decide +kernel : ∀ t : Fin grid0.N, isAccum (grid0.coords t) ↔ t.val < 16)
theorem isScale_iff : ∀ t : Fin cfg0.N, isScale (grid0.coords t) ↔ 16 ≤ t.val :=
  (by decide +kernel : ∀ t : Fin grid0.N, isScale (grid0.coords t) ↔ 16 ≤ t.val)

/-- The grid has 32 points. -/
theorem N_eq : cfg0.N = 32 := N_0

/-! ## Idle windows and write-backs -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The weights' window is idle exactly in the first phase. -/
theorem idle_3 : ∀ t : Fin cfg0.N, cfg0.idle 3 (grid0.coords t) = decide (t.val < 16) := by decide +kernel
/-- The retrieved values' window is idle exactly in the first phase. -/
theorem idle_4 : ∀ t : Fin cfg0.N, cfg0.idle 4 (grid0.coords t) = decide (t.val < 16) := by decide +kernel
/-- The weights' window is written back at every point of the second phase and at no other. -/
theorem flush_3 : ∀ t : Fin cfg0.N, (cfg0.win 3).flush t = decide (16 ≤ t.val) :=
  (by decide +kernel : ∀ t : Fin grid0.N, win0_3.flush t = decide (16 ≤ t.val))
/-- The retrieved values' window is written back at the last point only. -/
theorem flush_4 : ∀ t : Fin cfg0.N, (cfg0.win 4).flush t = decide (t.val = 31) :=
  (by decide +kernel : ∀ t : Fin grid0.N, win0_4.flush t = decide (t.val = 31))

/-! ## The memrefs the body is called with -/

abbrev stg0 (t : Fin cfg0.N) : Memref sig .tc .vmem S64x64 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S4096x64 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S4096x64 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S64x4096 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S64x64 .f32 := win0_4.stage (cfg0.slots t 4)
abbrev hstg4 (t : Fin cfg0.N) : (stg4 t).IsWhole := hstage0_4 ((cfg0.slots t 4).cast nbuf0_4)
/-- The three scratch operands: the stored exponentials (16 slices of 64 × 4096), the running row sums, the running
    unnormalised retrieved values. -/
abbrev scrE : Memref sig .tc .vmem S16x64x4096 .f32 := Memref.whole cc0_scratch0
abbrev scrS : Memref sig .tc .vmem S64x1 .f32 := Memref.whole cc0_scratch1
abbrev scrA : Memref sig .tc .vmem S64x64 .f32 := Memref.whole cc0_scratch2

/-- What the launch hands the region besides the windows: the three scratch buffers at anything, and the generator
    register. -/
theorem PhiA_eq (c : Dev nD) :
    (Pipeline.ΦA spec0 c : sProp 𝕄)
      = iprop(iprop((∃ d, owns (c : Thread nD τ) scrE fullShare d) ∗ (∃ d, owns (c : Thread nD τ) scrS fullShare d) ∗ (∃ d, owns (c : Thread nD τ) scrA fullShare d)) ∗ (∃ r, prngReg c r)) := by
  unfold Pipeline.ΦA; rw [scopedRest0_eq]; simp only [scrE, scrS, scrA, owns_whole]; try rfl

end Cert.Kernel.Body

end
-- ==== Proof.KB.RunFirst.lean ====
/-
  The body at the grid's first point: it zeroes the two accumulators, then computes the first tile's exponentials from
  the query block and the first key tile, stores them as slice 0 of the exponentials' buffer, adds their row sums to the
  (zeroed) sums and their product with the first value tile to the (zeroed) retrieved values. The buffer of exponentials
  is handed in at any contents `xs0` and comes back as `xs0` with that one slice written over it; the two accumulators
  are handed in at anything and come back with what the stores left. The output buffers are not touched.
-/
import proofs.«109230_g9234179687032_cont_9to1c4b_825_2_alg».proof.Proof.KB.Setup

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the pieces each scratch buffer ends with (found by the run), and the triple. -/
noncomputable def runFirst (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : isFirst i) (hc1 : isAccum i) (hc2 : ¬isScale i)
    (x0 : Vec F S64x64 .f32) (x1 : Vec F S4096x64 .f32) (x2 : Vec F S4096x64 .f32) (xs0 : Vec F S16x64x4096 .f32) :
    Σ' (LE : List (View.Piece (Elt F) S16x64x4096 .f32)) (LS : List (View.Piece (Elt F) S64x1 .f32)), { LA : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xs0 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (arg7.view.loc (c : Thread nD τ) ↦[arg7.view.set]{fullShare} arg7.view.writes (Elt F) (harg7.unread xs0) LE) ∗ (∃ f, (arg8.view.loc (c : Thread nD τ) ↦[arg8.view.set]{fullShare} arg8.view.writes (Elt F) f LS)) ∗ (∃ f, (arg9.view.loc (c : Thread nD τ) ↦[arg9.view.set]{fullShare} arg9.view.writes (Elt F) f LA))) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexact HS0
    isplitl [HS1]; · iexists _; iexact HS1
    iexists _; iexact HS2

end Cert.Kernel.Body

end
-- ==== Proof.KB.RunAccum.lean ====
/-
  The body at a later point of the first phase (tile t): it computes the tile's exponentials from the query block and
  key tile t, stores them as slice t of the exponentials' buffer, adds their row sums to the running sums and their
  product with value tile t to the running retrieved values. The exponentials' buffer is handed in at `xs0` and comes
  back as `xs0` with that slice written over it; the accumulators are handed in at `xs1`, `xs2` and come back with what
  the stores left. The output buffers are not touched.
-/
import proofs.«109230_g9234179687032_cont_9to1c4b_825_2_alg».proof.Proof.KB.Setup

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later first-phase point's run: the pieces each scratch buffer ends with (found by the run), and the triple. -/
noncomputable def runAccum (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : isAccum i) (hc2 : ¬isScale i)
    (x0 : Vec F S64x64 .f32) (x1 : Vec F S4096x64 .f32) (x2 : Vec F S4096x64 .f32) (xs0 : Vec F S16x64x4096 .f32) (xs1 : Vec F S64x1 .f32) (xs2 : Vec F S64x64 .f32) :
    Σ' (LE : List (View.Piece (Elt F) S16x64x4096 .f32)) (LS : List (View.Piece (Elt F) S64x1 .f32)), { LA : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (arg7.view.loc (c : Thread nD τ) ↦[arg7.view.set]{fullShare} arg7.view.writes (Elt F) (harg7.unread xs0) LE) ∗ (∃ f, (arg8.view.loc (c : Thread nD τ) ↦[arg8.view.set]{fullShare} arg8.view.writes (Elt F) f LS)) ∗ (∃ f, (arg9.view.loc (c : Thread nD τ) ↦[arg9.view.set]{fullShare} arg9.view.writes (Elt F) f LA))) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexact HS0
    isplitl [HS1]; · iexists _; iexact HS1
    iexists _; iexact HS2

end Cert.Kernel.Body

end
-- ==== Proof.KB.RunScale.lean ====
/-
  The body at a point of the second phase (point 16 + s): it divides one by the row sums, scales slice s of the stored
  exponentials by that and stores the result whole into the weights' output buffer, and scales the unnormalised
  retrieved values the same way into the other output buffer. The three scratch buffers are handed in at `xs0`, `xs1`,
  `xs2` and come back unchanged; the two output buffers are handed in at anything and come back with what the stores
  left.
-/
import proofs.«109230_g9234179687032_cont_9to1c4b_825_2_alg».proof.Proof.KB.Setup

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A second-phase point's run: the pieces each output buffer ends with (found by the run), and the triple. -/
noncomputable def runScale (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : ¬isAccum i) (hc2 : isScale i)
    (xs0 : Vec F S16x64x4096 .f32) (xs1 : Vec F S64x1 .f32) (xs2 : Vec F S64x64 .f32) :
    Σ' (LW : List (View.Piece (Elt F) S64x4096 .f32)), { LP : List (View.Piece (Elt F) S64x64 .f32) //
      ∀ (E : Set ℕ) (K : PUnit → sProp 𝕄),
        iprop((∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop((∃ f, (arg5.view.loc (c : Thread nD τ) ↦[arg5.view.set]{fullShare} arg5.view.writes (Elt F) f LW)) ∗ (∃ f, (arg6.view.loc (c : Thread nD τ) ↦[arg6.view.set]{fullShare} arg6.view.writes (Elt F) f LP)) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, fun E K => ?run⟩
  case run =>
    simp only [cc0__body_eq_skeleton]; unfold cc0__body_skel
    unfold owns
    iintro ⟨⟨%d3, %f3, -, H3⟩, ⟨%d4, %f4, -, H4⟩, ⟨%fs0, %hfs0, HS0⟩, ⟨%fs1, %hfs1, HS1⟩, ⟨%fs2, %hfs2, HS2⟩, Hk⟩
    obtain rfl := harg7.eq_unread hfs0; obtain rfl := harg8.eq_unread hfs1; obtain rfl := harg9.eq_unread hfs2
    sl_exec (disch := first | exact hc0 | exact hc1 | exact hc2)
    sl_step
    iapply Hk
    isplitl [H3]; · iexists _; iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Body

end
-- ==== Proof.KB.Contents.lean ====
/-
  What the three runs leave, read back. Over any memrefs and any contents handed in:
    at the first point the sums' buffer reads (zero + the first tile's row sums), the values' buffer (zero + the first
    tile's product with the value tile), and the exponentials' buffer reads the tile's exponentials on slice 0 and what
    it held elsewhere;
    at a later first-phase point the same with the running contents in place of the zeros, on slice t;
    at a second-phase point the two output buffers read the scaled slice and the scaled values.
  Each is the run's piece list read through the buffer: a whole-buffer store leaves its payload, a one-slice store
  leaves its payload on the slice and the old contents off it.
-/
import proofs.«109230_g9234179687032_cont_9to1c4b_825_2_alg».proof.Proof.KB.RunFirst
import proofs.«109230_g9234179687032_cont_9to1c4b_825_2_alg».proof.Proof.KB.RunAccum
import proofs.«109230_g9234179687032_cont_9to1c4b_825_2_alg».proof.Proof.KB.RunScale
import Idealize.ShloMosaic.Lib.WritesUnit
import Idealize.ShloMosaic.Lib.WholeRead
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeros2 : (![0, 0] : Fin 2 → ℕ) = fun _ => 0 := by
  funext a; match a with | ⟨0, _⟩ => rfl | ⟨1, _⟩ => rfl

section Accum

variable (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : isAccum i) (hc2 : ¬isScale i)
    (x0 : Vec F S64x64 .f32) (x1 : Vec F S4096x64 .f32) (x2 : Vec F S4096x64 .f32) (xs0 : Vec F S16x64x4096 .f32) (xs1 : Vec F S64x1 .f32) (xs2 : Vec F S64x64 .f32)

/-- The running sums after a later first-phase point: the old sums plus the tile's row sums. -/
theorem accum_sums (f : arg8.view.ty.Contents (Elt F)) :
    arg8.view.read (Elt F) (arg8.view.writes (Elt F) f (runAccum c i arg2 harg2 arg3 harg3 arg4 harg4 arg5 harg5 arg6 harg6 arg7 harg7 arg8 harg8 arg9 harg9 hc0 hc1 hc2 x0 x1 x2 xs0 xs1 xs2).2.1) = k0_pay9 x0 x1 xs1 := by
  unfold runAccum; dsimp only
  sl_unfold_run_names
  funext y
  refine (View.read_writes_cons_unit_of_mem arg8.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg2.read_unread, harg3.read_unread, harg8.read_unread, View.ld_unit_zero (S := S64x64) zeros2, View.ld_unit_zero (S := S4096x64) zeros2, View.ld_unit_zero (S := S64x1) zeros2]

/-- The running retrieved values after a later first-phase point: the old values plus the tile's product with the value tile. -/
theorem accum_vals (f : arg9.view.ty.Contents (Elt F)) :
    arg9.view.read (Elt F) (arg9.view.writes (Elt F) f (runAccum c i arg2 harg2 arg3 harg3 arg4 harg4 arg5 harg5 arg6 harg6 arg7 harg7 arg8 harg8 arg9 harg9 hc0 hc1 hc2 x0 x1 x2 xs0 xs1 xs2).2.2.1) = k0_pay3 (k0_pay10 x0 x1 xs2 x2) := by
  unfold runAccum; dsimp only
  sl_unfold_run_names
  funext y
  refine (View.read_writes_cons_unit_of_mem arg9.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg2.read_unread, harg3.read_unread, harg4.read_unread, harg9.read_unread, View.ld_unit_zero (S := S64x64) zeros2, View.ld_unit_zero (S := S4096x64) zeros2]

/-- On the slice the point stores, the exponentials' buffer reads the tile's exponentials. -/
theorem accum_slab_on (s : Fin 16) (hoff : k0_off1 i = ![s.val, 0, 0]) (p : Fin 64) (q : Fin 4096) :
    arg7.view.read (Elt F) (arg7.view.writes (Elt F) (harg7.unread xs0) (runAccum c i arg2 harg2 arg3 harg3 arg4 harg4 arg5 harg5 arg6 harg6 arg7 harg7 arg8 harg8 arg9 harg9 hc0 hc1 hc2 x0 x1 x2 xs0 xs1 xs2).1) (ix3 s p q)
      = k0_pay8 x0 x1 (ix3 (0 : Fin 1) p q) := by
  unfold runAccum; dsimp only
  refine (View.read_writes_cons_unit_of_mem arg7.view (harg7.unread xs0) _ _ [] (ix3 s p q) (ix3 (0 : Fin 1) p q) hoff ?_).trans ?_
  · intro a; match a with
    | ⟨0, _⟩ => show s.val = s.val + 0; omega
    | ⟨1, _⟩ => show p.val = 0 + p.val; omega
    | ⟨2, _⟩ => show q.val = 0 + q.val; omega
  · simp only [View.readAt_eq_ld, harg2.read_unread, harg3.read_unread, View.ld_unit_zero (S := S64x64) zeros2, View.ld_unit_zero (S := S4096x64) zeros2]

/-- Off that slice it reads what it held. -/
theorem accum_slab_off (s : Fin 16) (hoff : k0_off1 i = ![s.val, 0, 0]) (s' : Fin 16) (hne : s'.val ≠ s.val) (p : Fin 64) (q : Fin 4096) :
    arg7.view.read (Elt F) (arg7.view.writes (Elt F) (harg7.unread xs0) (runAccum c i arg2 harg2 arg3 harg3 arg4 harg4 arg5 harg5 arg6 harg6 arg7 harg7 arg8 harg8 arg9 harg9 hc0 hc1 hc2 x0 x1 x2 xs0 xs1 xs2).1) (ix3 s' p q)
      = xs0 (ix3 s' p q) := by
  unfold runAccum; dsimp only
  refine (View.read_writes_cons_unit_of_not_mem arg7.view (harg7.unread xs0) _ _ [] (ix3 s' p q) hoff (0 : Fin 3) ?_).trans ?_
  · show s'.val < s.val ∨ s.val + 1 ≤ s'.val; omega
  · rw [View.writes_nil]; exact congrFun (harg7.read_unread xs0) _

end Accum

section First

variable (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : isFirst i) (hc1 : isAccum i) (hc2 : ¬isScale i)
    (x0 : Vec F S64x64 .f32) (x1 : Vec F S4096x64 .f32) (x2 : Vec F S4096x64 .f32) (xs0 : Vec F S16x64x4096 .f32)

/-- The sums after the first point: zero plus the first tile's row sums. -/
theorem first_sums (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 hc0 hc1 hc2 x0 x1 x2 xs0).2.1) = k0_pay9 x0 x1 k0_pay1 := by
  unfold runFirst; dsimp only
  sl_unfold_run_names
  funext y
  refine (View.read_writes_cons_unit_of_mem arg8.view f _ _ _ y y rfl (fun a => ?_)).trans ?_
  · match a with
    | ⟨0, _⟩ => show (y 0).val = 0 + (y 0).val; omega
    | ⟨1, _⟩ => show (y 1).val = 0 + (y 1).val; omega
  · rw [View.readCov_unit_zero (S := S64x1) _ zeros2]
    simp only [View.readAt_eq_ld, harg2.read_unread, harg3.read_unread, View.ld_unit_zero (S := S64x64) zeros2, View.ld_unit_zero (S := S4096x64) zeros2]

/-- The retrieved values after the first point: zero plus the first tile's product with the value tile. -/
theorem first_vals (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 hc0 hc1 hc2 x0 x1 x2 xs0).2.2.1) = k0_pay3 (k0_pay10 x0 x1 k0_pay2 x2) := by
  unfold runFirst; dsimp only
  sl_unfold_run_names
  funext y
  refine (View.read_writes_cons_unit_of_mem arg9.view f _ _ _ y y rfl (fun a => ?_)).trans ?_
  · match a with
    | ⟨0, _⟩ => show (y 0).val = 0 + (y 0).val; omega
    | ⟨1, _⟩ => show (y 1).val = 0 + (y 1).val; omega
  · rw [View.readCov_unit_zero (S := S64x64) _ zeros2]
    simp only [View.readAt_eq_ld, harg2.read_unread, harg3.read_unread, harg4.read_unread, View.ld_unit_zero (S := S64x64) zeros2, View.ld_unit_zero (S := S4096x64) zeros2]

/-- On slice 0 the exponentials' buffer reads the first tile's exponentials. -/
theorem first_slab_on (s : Fin 16) (hoff : k0_off1 i = ![s.val, 0, 0]) (p : Fin 64) (q : Fin 4096) :
    arg7.view.read (Elt F) (arg7.view.writes (Elt F) (harg7.unread xs0) (runFirst c i arg2 harg2 arg3 harg3 arg4 harg4 arg5 harg5 arg6 harg6 arg7 harg7 arg8 harg8 arg9 harg9 hc0 hc1 hc2 x0 x1 x2 xs0).1) (ix3 s p q)
      = k0_pay8 x0 x1 (ix3 (0 : Fin 1) p q) := by
  unfold runFirst; dsimp only
  refine (View.read_writes_cons_unit_of_mem arg7.view (harg7.unread xs0) _ _ [] (ix3 s p q) (ix3 (0 : Fin 1) p q) hoff ?_).trans ?_
  · intro a; match a with
    | ⟨0, _⟩ => show s.val = s.val + 0; omega
    | ⟨1, _⟩ => show p.val = 0 + p.val; omega
    | ⟨2, _⟩ => show q.val = 0 + q.val; omega
  · simp only [View.readAt_eq_ld, harg2.read_unread, harg3.read_unread, View.ld_unit_zero (S := S64x64) zeros2, View.ld_unit_zero (S := S4096x64) zeros2]

/-- Off slice 0 it reads what it held. -/
theorem first_slab_off (s : Fin 16) (hoff : k0_off1 i = ![s.val, 0, 0]) (s' : Fin 16) (hne : s'.val ≠ s.val) (p : Fin 64) (q : Fin 4096) :
    arg7.view.read (Elt F) (arg7.view.writes (Elt F) (harg7.unread xs0) (runFirst c i arg2 harg2 arg3 harg3 arg4 harg4 arg5 harg5 arg6 harg6 arg7 harg7 arg8 harg8 arg9 harg9 hc0 hc1 hc2 x0 x1 x2 xs0).1) (ix3 s' p q)
      = xs0 (ix3 s' p q) := by
  unfold runFirst; dsimp only
  refine (View.read_writes_cons_unit_of_not_mem arg7.view (harg7.unread xs0) _ _ [] (ix3 s' p q) hoff (0 : Fin 3) ?_).trans ?_
  · show s'.val < s.val ∨ s.val + 1 ≤ s'.val; omega
  · rw [View.writes_nil]; exact congrFun (harg7.read_unread xs0) _

end First

section Scale

variable (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : ¬isAccum i) (hc2 : isScale i)
    (xs0 : Vec F S16x64x4096 .f32) (xs1 : Vec F S64x1 .f32) (xs2 : Vec F S64x64 .f32)

/-- The weights' buffer after a second-phase point: the point's slice of the stored exponentials, scaled by one over the row sums. -/
theorem scale_weights (f : arg5.view.ty.Contents (Elt F)) :
    arg5.view.read (Elt F) (arg5.view.writes (Elt F) f (runScale c i arg2 harg2 arg3 harg3 arg4 harg4 arg5 harg5 arg6 harg6 arg7 harg7 arg8 harg8 arg9 harg9 hc0 hc1 hc2 xs0 xs1 xs2).1)
      = k0_pay5 xs1 (View.ld xs0 (Rect.unit (s := S16x64x4096) (k0_off2 i) S1x64x4096.size (k0_off2_inb i hc2))) := by
  unfold runScale; dsimp only
  sl_unfold_run_names
  funext y
  refine (View.read_writes_cons_unit_of_mem arg5.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg7.read_unread, harg8.read_unread, View.ld_unit_zero (S := S64x1) zeros2]

/-- The retrieved values' buffer after a second-phase point: the unnormalised values scaled by one over the row sums. -/
theorem scale_values (f : arg6.view.ty.Contents (Elt F)) :
    arg6.view.read (Elt F) (arg6.view.writes (Elt F) f (runScale c i arg2 harg2 arg3 harg3 arg4 harg4 arg5 harg5 arg6 harg6 arg7 harg7 arg8 harg8 arg9 harg9 hc0 hc1 hc2 xs0 xs1 xs2).2.1) = k0_pay6 xs1 xs2 := by
  unfold runScale; dsimp only
  sl_unfold_run_names
  funext y
  refine (View.read_writes_cons_unit_of_mem arg6.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg8.read_unread, harg9.read_unread, View.ld_unit_zero (S := S64x1) zeros2, View.ld_unit_zero (S := S64x64) zeros2]

end Scale

end Cert.Kernel.Body

end
-- ==== Proof.KB.State.lean ====
/-
  The contents the kernel carries from grid point to grid point, as functions of the argument arrays.
  With Q the query block, K_t and V_t the key and value tiles of point t (t < 16):
    the tile's exponentials  E_t = k0_pay7 Q K_t  (stored as slice t of the exponentials' buffer, `slabAt`),
    the running row sums     s_0 = 0 + rowsum E_0,  s_t = s_(t-1) + rowsum E_t,
    the running values       a_0 = 0 + E_0 · V_0,   a_t = a_(t-1) + E_t · V_t,
  both frozen from point 16 on (`accs`). At point 16 + s the weights' buffer is left at slice s scaled by 1 / s_15 and
  the retrieved values' buffer at a_15 scaled by 1 / s_15 (`outW`, `outP`).
-/
import proofs.«109230_g9234179687032_cont_9to1c4b_825_2_alg».proof.Proof.KB.Setup
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The query block at point `t` (the whole query array, at every point). -/
abbrev qblk (c : Dev nD) (t : Fin cfg0.N) : Vec F S64x64 .f32 := iblk m c 0 t
/-- The key tile at point `t`. -/
abbrev kblk (c : Dev nD) (t : Fin cfg0.N) : Vec F S4096x64 .f32 := iblk m c 1 t
/-- The value tile at point `t`. -/
abbrev vblk (c : Dev nD) (t : Fin cfg0.N) : Vec F S4096x64 .f32 := iblk m c 2 t

/-- The running row sums and running retrieved values after point `n`. -/
def accs (c : Dev nD) : (n : ℕ) → n < cfg0.N → Vec F S64x1 .f32 × Vec F S64x64 .f32
  | 0, hn => (k0_pay9 (qblk m c ⟨0, hn⟩) (kblk m c ⟨0, hn⟩) k0_pay1,
      k0_pay3 (k0_pay10 (qblk m c ⟨0, hn⟩) (kblk m c ⟨0, hn⟩) k0_pay2 (vblk m c ⟨0, hn⟩)))
  | n + 1, hn =>
    if n + 1 < 16 then
      (k0_pay9 (qblk m c ⟨n + 1, hn⟩) (kblk m c ⟨n + 1, hn⟩) (accs c n (Nat.lt_of_succ_lt hn)).1,
        k0_pay3 (k0_pay10 (qblk m c ⟨n + 1, hn⟩) (kblk m c ⟨n + 1, hn⟩) (accs c n (Nat.lt_of_succ_lt hn)).2 (vblk m c ⟨n + 1, hn⟩)))
    else accs c n (Nat.lt_of_succ_lt hn)

theorem accs_zero (c : Dev nD) (hn : 0 < cfg0.N) :
    accs m c 0 hn = (k0_pay9 (qblk m c ⟨0, hn⟩) (kblk m c ⟨0, hn⟩) k0_pay1,
      k0_pay3 (k0_pay10 (qblk m c ⟨0, hn⟩) (kblk m c ⟨0, hn⟩) k0_pay2 (vblk m c ⟨0, hn⟩))) := rfl

theorem accs_succ_lt (c : Dev nD) (n : ℕ) (hn : n + 1 < cfg0.N) (h : n + 1 < 16) :
    accs m c (n + 1) hn = (k0_pay9 (qblk m c ⟨n + 1, hn⟩) (kblk m c ⟨n + 1, hn⟩) (accs m c n (Nat.lt_of_succ_lt hn)).1,
      k0_pay3 (k0_pay10 (qblk m c ⟨n + 1, hn⟩) (kblk m c ⟨n + 1, hn⟩) (accs m c n (Nat.lt_of_succ_lt hn)).2 (vblk m c ⟨n + 1, hn⟩))) :=
  if_pos h

theorem accs_succ_ge (c : Dev nD) (n : ℕ) (hn : n + 1 < cfg0.N) (h : ¬ n + 1 < 16) :
    accs m c (n + 1) hn = accs m c n (Nat.lt_of_succ_lt hn) :=
  if_neg h

/-- `accs` at the first point. -/
theorem accs_zero_of (c : Dev nD) (t : Fin cfg0.N) (hz : t.val = 0) :
    accs m c t.val t.isLt = (k0_pay9 (qblk m c t) (kblk m c t) k0_pay1, k0_pay3 (k0_pay10 (qblk m c t) (kblk m c t) k0_pay2 (vblk m c t))) := by
  obtain ⟨n, hn⟩ := t
  cases n with
  | zero => rfl
  | succ n => exact absurd hz (Nat.succ_ne_zero n)

/-- `accs` at a later first-phase point: one more tile over what the point before left. -/
theorem accs_pos_lt (c : Dev nD) (t : Fin cfg0.N) (hz : t.val ≠ 0) (h : t.val < 16) :
    accs m c t.val t.isLt = (k0_pay9 (qblk m c t) (kblk m c t) (accs m c (t.val - 1) (Nat.lt_of_le_of_lt (Nat.sub_le _ _) t.isLt)).1,
      k0_pay3 (k0_pay10 (qblk m c t) (kblk m c t) (accs m c (t.val - 1) (Nat.lt_of_le_of_lt (Nat.sub_le _ _) t.isLt)).2 (vblk m c t))) := by
  obtain ⟨n, hn⟩ := t
  cases n with
  | zero => exact absurd rfl hz
  | succ n => exact accs_succ_lt m c n hn h

/-- `accs` at a second-phase point: what the point before left. -/
theorem accs_pos_ge (c : Dev nD) (t : Fin cfg0.N) (hz : t.val ≠ 0) (h : ¬ t.val < 16) :
    accs m c t.val t.isLt = accs m c (t.val - 1) (Nat.lt_of_le_of_lt (Nat.sub_le _ _) t.isLt) := by
  obtain ⟨n, hn⟩ := t
  cases n with
  | zero => exact absurd rfl hz
  | succ n => exact accs_succ_ge m c n hn h

/-- The first-phase point that handled tile `s`. -/
abbrev tilePt (s : Fin 16) : Fin cfg0.N := ⟨s.val, lt_of_lt_of_eq (by have := s.isLt; omega : s.val < 32) N_eq.symm⟩

/-- Slice `s` of the exponentials' buffer once its point has run: tile `s`'s exponentials. -/
def slabAt (c : Dev nD) (s : Fin 16) : Vec F S1x64x4096 .f32 := k0_pay8 (qblk m c (tilePt s)) (kblk m c (tilePt s))

/-- Contents of the exponentials' buffer that agree with the tiles' exponentials on every slice up to `n`. -/
def Agrees (c : Dev nD) (n : ℕ) (X : Vec F S16x64x4096 .f32) : Prop :=
  ∀ s : Fin 16, s.val ≤ n → ∀ (p : Fin 64) (q : Fin 4096), X (ix3 s p q) = slabAt m c s (ix3 (0 : Fin 1) p q)

/-- The slice a second-phase point reads: slice `t - 16`. -/
abbrev sliceOf (t : Fin cfg0.N) : Fin 16 := ⟨t.val % 16, Nat.mod_lt _ (by omega)⟩

/-- What a second-phase point leaves in the weights' buffer. -/
def outW (c : Dev nD) (t : Fin cfg0.N) : Vec F S64x4096 .f32 :=
  k0_pay5 (accs m c (t.val - 1) (Nat.lt_of_le_of_lt (Nat.sub_le _ _) t.isLt)).1 (slabAt m c (sliceOf t))

/-- What a second-phase point leaves in the retrieved values' buffer. -/
def outP (c : Dev nD) (t : Fin cfg0.N) : Vec F S64x64 .f32 :=
  k0_pay6 (accs m c (t.val - 1) (Nat.lt_of_le_of_lt (Nat.sub_le _ _) t.isLt)).1 (accs m c (t.val - 1) (Nat.lt_of_le_of_lt (Nat.sub_le _ _) t.isLt)).2

end Cert.Kernel.Body

end
-- ==== Proof.KB.Frame.lean ====
/-
  The frame of the one pallas_call, with every buffer's contents named.
  The invariant between points: before the first point the scratch buffers hold anything; after point n the
  exponentials' buffer holds SOME contents that agree with the tiles' exponentials on every slice up to n (the slices
  not yet written are whatever the buffer held at launch), and the two accumulators hold the running sums and running
  values of the State module. At each point the body is one of the three runs; the input windows hold their blocks,
  the output windows are idle (left as found) through the first phase and are left at the scaled slice and the scaled
  values at each point of the second.
-/
import proofs.«109230_g9234179687032_cont_9to1c4b_825_2_alg».proof.Proof.KB.Contents
import proofs.«109230_g9234179687032_cont_9to1c4b_825_2_alg».proof.Proof.KB.State

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## Where the slice stores and loads fall -/

/-- At point t of the first phase the body stores slice t. -/
theorem storeOff_eq : ∀ t : Fin cfg0.N, t.val < 16 → k0_off1 (grid0.coords t) = ![t.val % 16, 0, 0] :=
  (by decide +kernel : ∀ t : Fin grid0.N, t.val < 16 → k0_off1 (grid0.coords t) = ![t.val % 16, 0, 0])
/-- At point t of the second phase the body loads slice t - 16. -/
theorem loadOff_eq : ∀ t : Fin cfg0.N, 16 ≤ t.val → k0_off2 (grid0.coords t) = ![t.val % 16, 0, 0] :=
  (by decide +kernel : ∀ t : Fin grid0.N, 16 ≤ t.val → k0_off2 (grid0.coords t) = ![t.val % 16, 0, 0])

/-! ## The invariant -/

/-- What the region holds besides the windows before point `n`. -/
def Inv (c : Dev nD) : (n : ℕ) → n ≤ cfg0.N → sProp 𝕄
  | 0, _ => Pipeline.ΦA spec0 c
  | n + 1, hn => iprop(iprop((∃ X, ⌜Agrees m c n X⌝ ∗ owns (c : Thread nD τ) scrE fullShare X) ∗ owns (c : Thread nD τ) scrS fullShare ((accs m c n hn).1) ∗ owns (c : Thread nD τ) scrA fullShare ((accs m c n hn).2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop((∃ X, ⌜Agrees m c n X⌝ ∗ owns (c : Thread nD τ) scrE fullShare X) ∗ owns (c : Thread nD τ) scrS fullShare ((accs m c n hn).1) ∗ owns (c : Thread nD τ) scrA fullShare ((accs m c n hn).2)) ∗ (∃ r, prngReg c r)) := rfl

theorem Inv_pos (c : Dev nD) (n : ℕ) (h : n ≤ cfg0.N) (hz : n ≠ 0) :
    Inv m c n h = iprop(iprop((∃ X, ⌜Agrees m c (n - 1) X⌝ ∗ owns (c : Thread nD τ) scrE fullShare X) ∗ owns (c : Thread nD τ) scrS fullShare ((accs m c (n - 1) (by omega)).1) ∗ owns (c : Thread nD τ) scrA fullShare ((accs m c (n - 1) (by omega)).2)) ∗ (∃ r, prngReg c r)) := by
  cases n with
  | zero => exact absurd rfl hz
  | succ n => rfl

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outW m c t
    | ⟨4, _⟩ => outP m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outW m c t := by dsimp only [dats]
theorem after_4 (c : Dev nD) (t : Fin cfg0.N) : (dats m 0 c).after 4 t = outP m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The agreement after a first-phase point's store: the written slice reads the tile's exponentials, the earlier
    slices what they did. -/
theorem agrees_step (c : Dev nD) (t : Fin cfg0.N) (ht : t.val < 16) (X X' : Vec F S16x64x4096 .f32)
    (hprev : t.val ≠ 0 → Agrees m c (t.val - 1) X)
    (hon : ∀ (p : Fin 64) (q : Fin 4096), X' (ix3 (sliceOf t) p q) = k0_pay8 (qblk m c t) (kblk m c t) (ix3 (0 : Fin 1) p q))
    (hoff : ∀ (s' : Fin 16), s'.val ≠ (sliceOf t).val → ∀ (p : Fin 64) (q : Fin 4096), X' (ix3 s' p q) = X (ix3 s' p q)) :
    Agrees m c t.val X' := by
  intro s hs p q
  have hmod : t.val % 16 = t.val := Nat.mod_eq_of_lt ht
  by_cases hst : s.val = t.val
  · have hse : s = sliceOf t := Fin.ext (by show s.val = t.val % 16; omega)
    have hpt : tilePt s = t := Fin.ext (by show s.val = t.val; exact hst)
    subst hse
    rw [hon p q]; unfold slabAt; rw [hpt]
  · have hne : s.val ≠ (sliceOf t).val := by show s.val ≠ t.val % 16; omega
    rw [hoff s hne p q]
    have h0 : t.val ≠ 0 := by omega
    exact hprev h0 s (by omega) p q

set_option maxHeartbeats 4000000 in
/-- The body at the first point: the scratch buffers arrive at anything; the reset-and-accumulate run leaves slice 0 written and the accumulators at the first tile's sums and values. -/
theorem sound_first (c : Dev nD) (t : Fin cfg0.N) (hz : t.val = 0) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ]
  have hN : t.val < 32 := lt_of_lt_of_eq t.isLt N_eq
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  have h1 : t.val < 16 := by omega
  have hi3 : cfg0.idle 3 (cfg0.grid.coords t) = true := (idle_3 t).trans (decide_eq_true h1)
  have hi4 : cfg0.idle 4 (cfg0.grid.coords t) = true := (idle_4 t).trans (decide_eq_true h1)
  have hf3 : (cfg0.win 3).flush t = false := (flush_3 t).trans (decide_eq_false (by omega))
  have hf4 : (cfg0.win 4).flush t = false := (flush_4 t).trans (decide_eq_false (by omega))
  rw [Dat.leavesExact_idle _ 3 t hi3 hf3, Dat.leavesExact_idle _ 4 t hi4 hf4]
  have hacc : isAccum (grid0.coords t) := (isAccum_iff t).mpr h1
  have hnsc : ¬isScale (grid0.coords t) := fun h => absurd ((isScale_iff t).mp h) (by omega)
  have hoff : k0_off1 (grid0.coords t) = ![(sliceOf t).val, 0, 0] := storeOff_eq t h1
  have hfst : isFirst (grid0.coords t) := (isFirst_iff t).mpr hz
  rw [Inv_castSucc m c t, Inv_zero m c _ _ hz, PhiA_eq]
  iintro ⟨⟨⟨⟨%X, HS0⟩, HS1, HS2⟩, Hg⟩, Ho, ⟨%d0, H0⟩, ⟨%d1, H1⟩, ⟨%d2, H2⟩, H3, H4⟩
  iapply ((runFirst c (grid0.coords t) _ _ _ _ _ _ (stg3 t) (hstg3 t) (stg4 t) (hstg4 t) scrE (Memref.isWhole_whole _) scrS (Memref.isWhole_whole _) scrA (Memref.isWhole_whole _) hfst hacc hnsc (iblk m c 0 t) (iblk m c 1 t) (iblk m c 2 t) X).2.2.2 Set.univ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, ⟨%es1, HS1⟩, ⟨%es2, HS2⟩⟩
  isplitl [HS0 HS1 HS2 Hg]
  · isplitl [HS0 HS1 HS2]
    · isplitl [HS0]
      · iexists _; isplitr
        swap; · iapply (owns_intro (c : Thread nD τ) scrE fullShare _); iexact HS0
        ipureintro
        exact agrees_step m c t h1 X _ (fun h => absurd hz h)
          (fun p q => first_slab_on c _ _ _ _ _ _ _ _ _ _ _ _ _ _ _ _ _ hfst hacc hnsc _ _ _ X (sliceOf t) hoff p q)
          (fun s' hne p q => first_slab_off c _ _ _ _ _ _ _ _ _ _ _ _ _ _ _ _ _ hfst hacc hnsc _ _ _ X (sliceOf t) hoff s' hne p q)
      isplitl [HS1]
      · rw [accs_zero_of m c t hz]
        unfold owns; iexists _; isplitr
        swap; · iexact HS1
        ipureintro; exact first_sums c _ _ _ _ _ _ _ _ _ _ _ _ _ _ _ _ _ hfst hacc hnsc _ _ _ X es1
      rw [accs_zero_of m c t hz]
      unfold owns; iexists _; isplitr
      swap; · iexact HS2
      ipureintro; exact first_vals c _ _ _ _ _ _ _ _ _ _ _ _ _ _ _ _ _ hfst hacc hnsc _ _ _ X es2
    iexact Hg
  isplitl [Ho]; · iexact Ho
  isplitl [H0]; · iexact H0
  isplitl [H1]; · iexact H1
  isplitl [H2]; · iexact H2
  isplitl [H3]; · iexact H3
  iexact H4

set_option maxHeartbeats 4000000 in
/-- The body at a later point of the first phase: the accumulate run over what the point before left. -/
theorem sound_accum (c : Dev nD) (t : Fin cfg0.N) (hz : t.val ≠ 0) (h1 : t.val < 16) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ]
  have hN : t.val < 32 := lt_of_lt_of_eq t.isLt N_eq
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  have hi3 : cfg0.idle 3 (cfg0.grid.coords t) = true := (idle_3 t).trans (decide_eq_true h1)
  have hi4 : cfg0.idle 4 (cfg0.grid.coords t) = true := (idle_4 t).trans (decide_eq_true h1)
  have hf3 : (cfg0.win 3).flush t = false := (flush_3 t).trans (decide_eq_false (by omega))
  have hf4 : (cfg0.win 4).flush t = false := (flush_4 t).trans (decide_eq_false (by omega))
  rw [Dat.leavesExact_idle _ 3 t hi3 hf3, Dat.leavesExact_idle _ 4 t hi4 hf4]
  have hacc : isAccum (grid0.coords t) := (isAccum_iff t).mpr h1
  have hnsc : ¬isScale (grid0.coords t) := fun h => absurd ((isScale_iff t).mp h) (by omega)
  have hoff : k0_off1 (grid0.coords t) = ![(sliceOf t).val, 0, 0] := storeOff_eq t h1
  have hnfst : ¬isFirst (grid0.coords t) := fun h => hz ((isFirst_iff t).mp h)
  rw [Inv_castSucc m c t, Inv_pos m c _ _ hz]
  iintro ⟨⟨⟨⟨%X, %hX, HS0⟩, HS1, HS2⟩, Hg⟩, Ho, ⟨%d0, H0⟩, ⟨%d1, H1⟩, ⟨%d2, H2⟩, H3, H4⟩
  iapply ((runAccum c (grid0.coords t) _ _ _ _ _ _ (stg3 t) (hstg3 t) (stg4 t) (hstg4 t) scrE (Memref.isWhole_whole _) scrS (Memref.isWhole_whole _) scrA (Memref.isWhole_whole _) hnfst hacc hnsc (iblk m c 0 t) (iblk m c 1 t) (iblk m c 2 t) X _ _).2.2.2 Set.univ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, ⟨%es1, HS1⟩, ⟨%es2, HS2⟩⟩
  isplitl [HS0 HS1 HS2 Hg]
  · isplitl [HS0 HS1 HS2]
    · isplitl [HS0]
      · iexists _; isplitr
        swap; · iapply (owns_intro (c : Thread nD τ) scrE fullShare _); iexact HS0
        ipureintro
        exact agrees_step m c t h1 X _ (fun _ => hX)
          (fun p q => accum_slab_on c _ _ _ _ _ _ _ _ _ _ _ _ _ _ _ _ _ hnfst hacc hnsc _ _ _ X _ _ (sliceOf t) hoff p q)
          (fun s' hne p q => accum_slab_off c _ _ _ _ _ _ _ _ _ _ _ _ _ _ _ _ _ hnfst hacc hnsc _ _ _ X _ _ (sliceOf t) hoff s' hne p q)
      isplitl [HS1]
      · rw [accs_pos_lt m c t hz h1]
        unfold owns; iexists _; isplitr
        swap; · iexact HS1
        ipureintro; exact accum_sums c _ _ _ _ _ _ _ _ _ _ _ _ _ _ _ _ _ hnfst hacc hnsc _ _ _ X _ _ es1
      rw [accs_pos_lt m c t hz h1]
      unfold owns; iexists _; isplitr
      swap; · iexact HS2
      ipureintro; exact accum_vals c _ _ _ _ _ _ _ _ _ _ _ _ _ _ _ _ _ hnfst hacc hnsc _ _ _ X _ _ es2
    iexact Hg
  isplitl [Ho]; · iexact Ho
  isplitl [H0]; · iexact H0
  isplitl [H1]; · iexact H1
  isplitl [H2]; · iexact H2
  isplitl [H3]; · iexact H3
  iexact H4

set_option maxHeartbeats 4000000 in
/-- The body at a point of the second phase: every slice is known by now, so the slice the point loads is its tile's exponentials; the scratch buffers come back unchanged and the outputs at the scaled slice and values. -/
theorem sound_scale (c : Dev nD) (t : Fin cfg0.N) (h1 : ¬ t.val < 16) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ]
  have hN : t.val < 32 := lt_of_lt_of_eq t.isLt N_eq
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  have h16 : 16 ≤ t.val := by omega
  have hz : t.val ≠ 0 := by omega
  have hi3 : cfg0.idle 3 (cfg0.grid.coords t) = false := (idle_3 t).trans (decide_eq_false h1)
  have hi4 : cfg0.idle 4 (cfg0.grid.coords t) = false := (idle_4 t).trans (decide_eq_false h1)
  rw [show (dats m 0 c).leavesExact 3 t = owns (c : Thread nD τ) (stg3 t) fullShare ((dats m 0 c).after 3 t) from by
    unfold Dat.leavesExact; rw [hi3], after_3]
  rw [show (dats m 0 c).leavesExact 4 t = owns (c : Thread nD τ) (stg4 t) fullShare ((dats m 0 c).after 4 t) from by
    unfold Dat.leavesExact; rw [hi4], after_4]
  have hnfst : ¬isFirst (grid0.coords t) := fun h => hz ((isFirst_iff t).mp h)
  have hnacc : ¬isAccum (grid0.coords t) := fun h => h1 ((isAccum_iff t).mp h)
  have hsc : isScale (grid0.coords t) := (isScale_iff t).mpr h16
  have hoff : k0_off2 (grid0.coords t) = ![(sliceOf t).val, 0, 0] := loadOff_eq t h16
  rw [Inv_castSucc m c t, Inv_pos m c _ _ hz]
  iintro ⟨⟨⟨⟨%X, %hX, HS0⟩, HS1, HS2⟩, Hg⟩, Ho, ⟨%d0, H0⟩, ⟨%d1, H1⟩, ⟨%d2, H2⟩, ⟨%d3, H3⟩, ⟨%d4, H4⟩⟩
  iapply ((runScale c (grid0.coords t) (stg0 t) (hstg0 t) (stg1 t) (hstg1 t) (stg2 t) (hstg2 t) _ _ _ _ scrE (Memref.isWhole_whole _) scrS (Memref.isWhole_whole _) scrA (Memref.isWhole_whole _) hnfst hnacc hsc X _ _).2.2 Set.univ _)
  isplitl [H3]; · iexists _; iexact H3
  isplitl [H4]; · iexists _; iexact H4
  isplitl [HS0]; · iexact HS0
  isplitl [HS1]; · iexact HS1
  isplitl [HS2]; · iexact HS2
  iintro ⟨⟨%e3, H3⟩, ⟨%e4, H4⟩, HS0, HS1, HS2⟩
  isplitl [HS0 HS1 HS2 Hg]
  · isplitl [HS0 HS1 HS2]
    · isplitl [HS0]
      · iexists X; isplitr
        swap; · iexact HS0
        ipureintro
        intro s hs p q
        exact hX s (by have := s.isLt; omega) p q
      rw [accs_pos_ge m c t hz h1]
      isplitl [HS1]; · iexact HS1
      iexact HS2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro
    rw [scale_weights c _ _ _ _ _ _ _ _ _ _ _ _ _ _ _ _ _ hnfst hnacc hsc X _ _ e3]
    unfold outW
    congr 1
    funext y
    obtain ⟨a, p, q, rfl⟩ : ∃ (a : Fin 1) (p : Fin 64) (q : Fin 4096), y = ix3 a p q := ⟨y 0, y 1, y 2, eq_ix3 y⟩
    have ha : a = 0 := Fin.ext (by omega)
    subst ha
    refine Eq.trans ?_ (hX (sliceOf t) (by have := (sliceOf t).isLt; omega) p q)
    show X _ = X _
    congr 1
    funext b
    match b with
    | ⟨0, _⟩ => exact Fin.ext (by show k0_off2 (grid0.coords t) 0 + 1 * 0 = (sliceOf t).val; rw [hoff]; rfl)
    | ⟨1, _⟩ => exact Fin.ext (by show k0_off2 (grid0.coords t) 1 + 1 * p.val = p.val; rw [hoff]; show 0 + 1 * p.val = p.val; omega)
    | ⟨2, _⟩ => exact Fin.ext (by show k0_off2 (grid0.coords t) 2 + 1 * q.val = q.val; rw [hoff]; show 0 + 1 * q.val = q.val; omega)
  unfold owns; iexists _; isplitr
  swap; · iexact H4
  ipureintro
  rw [scale_values c _ _ _ _ _ _ _ _ _ _ _ _ _ _ _ _ _ hnfst hnacc hsc X _ _ e4]
  rfl

/-- The body at any point: one of the three cases. -/
theorem sound_body (c : Dev nD) (t : Fin cfg0.N) :
    bodyPre m c t ⊢ wp Idealize.ShloMosaic.frame (wpE (defs₀ (F := F)) Variants.none c none) Set.univ (bodyAt0 t) (fun _ => bodyPost m c t) := by
  by_cases h1 : t.val < 16
  · by_cases hz : t.val = 0
    · exact sound_first m c t hz
    · exact sound_accum m c t hz h1
  · exact sound_scale m c t h1

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 32 := N_eq; omega), PhiA_eq]
  iintro ⟨⟨⟨%X, -, HS0⟩, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, every array of the pipeline at what the proof data compute and
    every other unscoped buffer at its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Setup.lean ====
/-
  The grid of the one pallas_call is 2 × 16, walked row-major: points 0..15 are the first phase (every tile of the key
  and value tables is visited once: tile t at point t), points 16..31 the second (the stored exponentials are scaled
  and written out, slice t - 16 at point t). This module decides, over that grid, the three branches of the body
  (the reset at point 0, the accumulation in the first phase, the scaling in the second), where the two output windows
  are idle (the first phase) and when they are written back (the weights' at every point of the second phase, the
  retrieved values' at the last point), and names the staging and scratch memrefs the body is called with.
-/
import proofs.«109230_g9234179687032_cont_9to1c4b_825_2_alg».proof.Proof.Gen.KernelIdeal.Frame
import proofs.«109230_g9234179687032_cont_9to1c4b_825_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three branches, decided over the grid -/

/-- The reset branch's condition (both coordinates zero), as the body computes it. -/
abbrev isFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The accumulation branch's condition (first coordinate zero). -/
abbrev isAccum (i : grid0.Coords) : Prop := k0_cond2 i = 1#1
/-- The scaling branch's condition (first coordinate one). -/
abbrev isScale (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isAccum_iff : ∀ t : Fin cfg0.N, isAccum (grid0.coords t) ↔ t.val < 16 :=
  (by decide +kernel : ∀ t : Fin grid0.N, isAccum (grid0.coords t) ↔ t.val < 16)
theorem isScale_iff : ∀ t : Fin cfg0.N, isScale (grid0.coords t) ↔ 16 ≤ t.val :=
  (by decide +kernel : ∀ t : Fin grid0.N, isScale (grid0.coords t) ↔ 16 ≤ t.val)

/-- The grid has 32 points. -/
theorem N_eq : cfg0.N = 32 := N_0

/-! ## Idle windows and write-backs -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The weights' window is idle exactly in the first phase. -/
theorem idle_3 : ∀ t : Fin cfg0.N, cfg0.idle 3 (grid0.coords t) = decide (t.val < 16) := by decide +kernel
/-- The retrieved values' window is idle exactly in the first phase. -/
theorem idle_4 : ∀ t : Fin cfg0.N, cfg0.idle 4 (grid0.coords t) = decide (t.val < 16) := by decide +kernel
/-- The weights' window is written back at every point of the second phase and at no other. -/
theorem flush_3 : ∀ t : Fin cfg0.N, (cfg0.win 3).flush t = decide (16 ≤ t.val) :=
  (by decide +kernel : ∀ t : Fin grid0.N, win0_3.flush t = decide (16 ≤ t.val))
/-- The retrieved values' window is written back at the last point only. -/
theorem flush_4 : ∀ t : Fin cfg0.N, (cfg0.win 4).flush t = decide (t.val = 31) :=
  (by decide +kernel : ∀ t : Fin grid0.N, win0_4.flush t = decide (t.val = 31))

/-! ## The memrefs the body is called with -/

abbrev stg0 (t : Fin cfg0.N) : Memref sig .tc .vmem S64x64 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S4096x64 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S4096x64 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S64x4096 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S64x64 .f32 := win0_4.stage (cfg0.slots t 4)
abbrev hstg4 (t : Fin cfg0.N) : (stg4 t).IsWhole := hstage0_4 ((cfg0.slots t 4).cast nbuf0_4)
/-- The three scratch operands: the stored exponentials (16 slices of 64 × 4096), the running row sums, the running
    unnormalised retrieved values. -/
abbrev scrE : Memref sig .tc .vmem S16x64x4096 .f32 := Memref.whole cc0_scratch0
abbrev scrS : Memref sig .tc .vmem S64x1 .f32 := Memref.whole cc0_scratch1
abbrev scrA : Memref sig .tc .vmem S64x64 .f32 := Memref.whole cc0_scratch2

/-- What the launch hands the region besides the windows: the three scratch buffers at anything, and the generator
    register. -/
theorem PhiA_eq (c : Dev nD) :
    (Pipeline.ΦA spec0 c : sProp 𝕄)
      = iprop(iprop((∃ d, owns (c : Thread nD τ) scrE fullShare d) ∗ (∃ d, owns (c : Thread nD τ) scrS fullShare d) ∗ (∃ d, owns (c : Thread nD τ) scrA fullShare d)) ∗ (∃ r, prngReg c r)) := by
  unfold Pipeline.ΦA; rw [scopedRest0_eq]; simp only [scrE, scrS, scrA, owns_whole]; try rfl

end Cert.KernelIdeal.Body

end
-- ==== Proof.KI.RunFirst.lean ====
/-
  The body at the grid's first point: it zeroes the two accumulators, then computes the first tile's exponentials from
  the query block and the first key tile, stores them as slice 0 of the exponentials' buffer, adds their row sums to the
  (zeroed) sums and their product with the first value tile to the (zeroed) retrieved values. The buffer of exponentials
  is handed in at any contents `xs0` and comes back as `xs0` with that one slice written over it; the two accumulators
  are handed in at anything and come back with what the stores left. The output buffers are not touched.
-/
import proofs.«109230_g9234179687032_cont_9to1c4b_825_2_alg».proof.Proof.KI.Setup

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the pieces each scratch buffer ends with (found by the run), and the triple. -/
noncomputable def runFirst (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : isFirst i) (hc1 : isAccum i) (hc2 : ¬isScale i)
    (x0 : Vec F S64x64 .f32) (x1 : Vec F S4096x64 .f32) (x2 : Vec F S4096x64 .f32) (xs0 : Vec F S16x64x4096 .f32) :
    Σ' (LE : List (View.Piece (Elt F) S16x64x4096 .f32)) (LS : List (View.Piece (Elt F) S64x1 .f32)), { LA : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xs0 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (arg7.view.loc (c : Thread nD τ) ↦[arg7.view.set]{fullShare} arg7.view.writes (Elt F) (harg7.unread xs0) LE) ∗ (∃ f, (arg8.view.loc (c : Thread nD τ) ↦[arg8.view.set]{fullShare} arg8.view.writes (Elt F) f LS)) ∗ (∃ f, (arg9.view.loc (c : Thread nD τ) ↦[arg9.view.set]{fullShare} arg9.view.writes (Elt F) f LA))) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexact HS0
    isplitl [HS1]; · iexists _; iexact HS1
    iexists _; iexact HS2

end Cert.KernelIdeal.Body

end
-- ==== Proof.KI.RunAccum.lean ====
/-
  The body at a later point of the first phase (tile t): it computes the tile's exponentials from the query block and
  key tile t, stores them as slice t of the exponentials' buffer, adds their row sums to the running sums and their
  product with value tile t to the running retrieved values. The exponentials' buffer is handed in at `xs0` and comes
  back as `xs0` with that slice written over it; the accumulators are handed in at `xs1`, `xs2` and come back with what
  the stores left. The output buffers are not touched.
-/
import proofs.«109230_g9234179687032_cont_9to1c4b_825_2_alg».proof.Proof.KI.Setup

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later first-phase point's run: the pieces each scratch buffer ends with (found by the run), and the triple. -/
noncomputable def runAccum (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : isAccum i) (hc2 : ¬isScale i)
    (x0 : Vec F S64x64 .f32) (x1 : Vec F S4096x64 .f32) (x2 : Vec F S4096x64 .f32) (xs0 : Vec F S16x64x4096 .f32) (xs1 : Vec F S64x1 .f32) (xs2 : Vec F S64x64 .f32) :
    Σ' (LE : List (View.Piece (Elt F) S16x64x4096 .f32)) (LS : List (View.Piece (Elt F) S64x1 .f32)), { LA : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (arg7.view.loc (c : Thread nD τ) ↦[arg7.view.set]{fullShare} arg7.view.writes (Elt F) (harg7.unread xs0) LE) ∗ (∃ f, (arg8.view.loc (c : Thread nD τ) ↦[arg8.view.set]{fullShare} arg8.view.writes (Elt F) f LS)) ∗ (∃ f, (arg9.view.loc (c : Thread nD τ) ↦[arg9.view.set]{fullShare} arg9.view.writes (Elt F) f LA))) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexact HS0
    isplitl [HS1]; · iexists _; iexact HS1
    iexists _; iexact HS2

end Cert.KernelIdeal.Body

end
-- ==== Proof.KI.RunScale.lean ====
/-
  The body at a point of the second phase (point 16 + s): it divides one by the row sums, scales slice s of the stored
  exponentials by that and stores the result whole into the weights' output buffer, and scales the unnormalised
  retrieved values the same way into the other output buffer. The three scratch buffers are handed in at `xs0`, `xs1`,
  `xs2` and come back unchanged; the two output buffers are handed in at anything and come back with what the stores
  left.
-/
import proofs.«109230_g9234179687032_cont_9to1c4b_825_2_alg».proof.Proof.KI.Setup

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A second-phase point's run: the pieces each output buffer ends with (found by the run), and the triple. -/
noncomputable def runScale (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : ¬isAccum i) (hc2 : isScale i)
    (xs0 : Vec F S16x64x4096 .f32) (xs1 : Vec F S64x1 .f32) (xs2 : Vec F S64x64 .f32) :
    Σ' (LW : List (View.Piece (Elt F) S64x4096 .f32)), { LP : List (View.Piece (Elt F) S64x64 .f32) //
      ∀ (E : Set ℕ) (K : PUnit → sProp 𝕄),
        iprop((∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop((∃ f, (arg5.view.loc (c : Thread nD τ) ↦[arg5.view.set]{fullShare} arg5.view.writes (Elt F) f LW)) ∗ (∃ f, (arg6.view.loc (c : Thread nD τ) ↦[arg6.view.set]{fullShare} arg6.view.writes (Elt F) f LP)) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, fun E K => ?run⟩
  case run =>
    simp only [cc0__body_eq_skeleton]; unfold cc0__body_skel
    unfold owns
    iintro ⟨⟨%d3, %f3, -, H3⟩, ⟨%d4, %f4, -, H4⟩, ⟨%fs0, %hfs0, HS0⟩, ⟨%fs1, %hfs1, HS1⟩, ⟨%fs2, %hfs2, HS2⟩, Hk⟩
    obtain rfl := harg7.eq_unread hfs0; obtain rfl := harg8.eq_unread hfs1; obtain rfl := harg9.eq_unread hfs2
    sl_exec (disch := first | exact hc0 | exact hc1 | exact hc2)
    sl_step
    iapply Hk
    isplitl [H3]; · iexists _; iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Body

end
-- ==== Proof.KI.Contents.lean ====
/-
  What the three runs leave, read back. Over any memrefs and any contents handed in:
    at the first point the sums' buffer reads (zero + the first tile's row sums), the values' buffer (zero + the first
    tile's product with the value tile), and the exponentials' buffer reads the tile's exponentials on slice 0 and what
    it held elsewhere;
    at a later first-phase point the same with the running contents in place of the zeros, on slice t;
    at a second-phase point the two output buffers read the scaled slice and the scaled values.
  Each is the run's piece list read through the buffer: a whole-buffer store leaves its payload, a one-slice store
  leaves its payload on the slice and the old contents off it.
-/
import proofs.«109230_g9234179687032_cont_9to1c4b_825_2_alg».proof.Proof.KI.RunFirst
import proofs.«109230_g9234179687032_cont_9to1c4b_825_2_alg».proof.Proof.KI.RunAccum
import proofs.«109230_g9234179687032_cont_9to1c4b_825_2_alg».proof.Proof.KI.RunScale
import Idealize.ShloMosaic.Lib.WritesUnit
import Idealize.ShloMosaic.Lib.WholeRead
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeros2 : (![0, 0] : Fin 2 → ℕ) = fun _ => 0 := by
  funext a; match a with | ⟨0, _⟩ => rfl | ⟨1, _⟩ => rfl

section Accum

variable (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : isAccum i) (hc2 : ¬isScale i)
    (x0 : Vec F S64x64 .f32) (x1 : Vec F S4096x64 .f32) (x2 : Vec F S4096x64 .f32) (xs0 : Vec F S16x64x4096 .f32) (xs1 : Vec F S64x1 .f32) (xs2 : Vec F S64x64 .f32)

/-- The running sums after a later first-phase point: the old sums plus the tile's row sums. -/
theorem accum_sums (f : arg8.view.ty.Contents (Elt F)) :
    arg8.view.read (Elt F) (arg8.view.writes (Elt F) f (runAccum c i arg2 harg2 arg3 harg3 arg4 harg4 arg5 harg5 arg6 harg6 arg7 harg7 arg8 harg8 arg9 harg9 hc0 hc1 hc2 x0 x1 x2 xs0 xs1 xs2).2.1) = k0_pay9 x0 x1 xs1 := by
  unfold runAccum; dsimp only
  sl_unfold_run_names
  funext y
  refine (View.read_writes_cons_unit_of_mem arg8.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg2.read_unread, harg3.read_unread, harg8.read_unread, View.ld_unit_zero (S := S64x64) zeros2, View.ld_unit_zero (S := S4096x64) zeros2, View.ld_unit_zero (S := S64x1) zeros2]

/-- The running retrieved values after a later first-phase point: the old values plus the tile's product with the value tile. -/
theorem accum_vals (f : arg9.view.ty.Contents (Elt F)) :
    arg9.view.read (Elt F) (arg9.view.writes (Elt F) f (runAccum c i arg2 harg2 arg3 harg3 arg4 harg4 arg5 harg5 arg6 harg6 arg7 harg7 arg8 harg8 arg9 harg9 hc0 hc1 hc2 x0 x1 x2 xs0 xs1 xs2).2.2.1) = k0_pay3 (k0_pay10 x0 x1 xs2 x2) := by
  unfold runAccum; dsimp only
  sl_unfold_run_names
  funext y
  refine (View.read_writes_cons_unit_of_mem arg9.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg2.read_unread, harg3.read_unread, harg4.read_unread, harg9.read_unread, View.ld_unit_zero (S := S64x64) zeros2, View.ld_unit_zero (S := S4096x64) zeros2]

/-- On the slice the point stores, the exponentials' buffer reads the tile's exponentials. -/
theorem accum_slab_on (s : Fin 16) (hoff : k0_off1 i = ![s.val, 0, 0]) (p : Fin 64) (q : Fin 4096) :
    arg7.view.read (Elt F) (arg7.view.writes (Elt F) (harg7.unread xs0) (runAccum c i arg2 harg2 arg3 harg3 arg4 harg4 arg5 harg5 arg6 harg6 arg7 harg7 arg8 harg8 arg9 harg9 hc0 hc1 hc2 x0 x1 x2 xs0 xs1 xs2).1) (ix3 s p q)
      = k0_pay8 x0 x1 (ix3 (0 : Fin 1) p q) := by
  unfold runAccum; dsimp only
  refine (View.read_writes_cons_unit_of_mem arg7.view (harg7.unread xs0) _ _ [] (ix3 s p q) (ix3 (0 : Fin 1) p q) hoff ?_).trans ?_
  · intro a; match a with
    | ⟨0, _⟩ => show s.val = s.val + 0; omega
    | ⟨1, _⟩ => show p.val = 0 + p.val; omega
    | ⟨2, _⟩ => show q.val = 0 + q.val; omega
  · simp only [View.readAt_eq_ld, harg2.read_unread, harg3.read_unread, View.ld_unit_zero (S := S64x64) zeros2, View.ld_unit_zero (S := S4096x64) zeros2]

/-- Off that slice it reads what it held. -/
theorem accum_slab_off (s : Fin 16) (hoff : k0_off1 i = ![s.val, 0, 0]) (s' : Fin 16) (hne : s'.val ≠ s.val) (p : Fin 64) (q : Fin 4096) :
    arg7.view.read (Elt F) (arg7.view.writes (Elt F) (harg7.unread xs0) (runAccum c i arg2 harg2 arg3 harg3 arg4 harg4 arg5 harg5 arg6 harg6 arg7 harg7 arg8 harg8 arg9 harg9 hc0 hc1 hc2 x0 x1 x2 xs0 xs1 xs2).1) (ix3 s' p q)
      = xs0 (ix3 s' p q) := by
  unfold runAccum; dsimp only
  refine (View.read_writes_cons_unit_of_not_mem arg7.view (harg7.unread xs0) _ _ [] (ix3 s' p q) hoff (0 : Fin 3) ?_).trans ?_
  · show s'.val < s.val ∨ s.val + 1 ≤ s'.val; omega
  · rw [View.writes_nil]; exact congrFun (harg7.read_unread xs0) _

end Accum

section First

variable (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : isFirst i) (hc1 : isAccum i) (hc2 : ¬isScale i)
    (x0 : Vec F S64x64 .f32) (x1 : Vec F S4096x64 .f32) (x2 : Vec F S4096x64 .f32) (xs0 : Vec F S16x64x4096 .f32)

/-- The sums after the first point: zero plus the first tile's row sums. -/
theorem first_sums (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 hc0 hc1 hc2 x0 x1 x2 xs0).2.1) = k0_pay9 x0 x1 k0_pay1 := by
  unfold runFirst; dsimp only
  sl_unfold_run_names
  funext y
  refine (View.read_writes_cons_unit_of_mem arg8.view f _ _ _ y y rfl (fun a => ?_)).trans ?_
  · match a with
    | ⟨0, _⟩ => show (y 0).val = 0 + (y 0).val; omega
    | ⟨1, _⟩ => show (y 1).val = 0 + (y 1).val; omega
  · rw [View.readCov_unit_zero (S := S64x1) _ zeros2]
    simp only [View.readAt_eq_ld, harg2.read_unread, harg3.read_unread, View.ld_unit_zero (S := S64x64) zeros2, View.ld_unit_zero (S := S4096x64) zeros2]

/-- The retrieved values after the first point: zero plus the first tile's product with the value tile. -/
theorem first_vals (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 hc0 hc1 hc2 x0 x1 x2 xs0).2.2.1) = k0_pay3 (k0_pay10 x0 x1 k0_pay2 x2) := by
  unfold runFirst; dsimp only
  sl_unfold_run_names
  funext y
  refine (View.read_writes_cons_unit_of_mem arg9.view f _ _ _ y y rfl (fun a => ?_)).trans ?_
  · match a with
    | ⟨0, _⟩ => show (y 0).val = 0 + (y 0).val; omega
    | ⟨1, _⟩ => show (y 1).val = 0 + (y 1).val; omega
  · rw [View.readCov_unit_zero (S := S64x64) _ zeros2]
    simp only [View.readAt_eq_ld, harg2.read_unread, harg3.read_unread, harg4.read_unread, View.ld_unit_zero (S := S64x64) zeros2, View.ld_unit_zero (S := S4096x64) zeros2]

/-- On slice 0 the exponentials' buffer reads the first tile's exponentials. -/
theorem first_slab_on (s : Fin 16) (hoff : k0_off1 i = ![s.val, 0, 0]) (p : Fin 64) (q : Fin 4096) :
    arg7.view.read (Elt F) (arg7.view.writes (Elt F) (harg7.unread xs0) (runFirst c i arg2 harg2 arg3 harg3 arg4 harg4 arg5 harg5 arg6 harg6 arg7 harg7 arg8 harg8 arg9 harg9 hc0 hc1 hc2 x0 x1 x2 xs0).1) (ix3 s p q)
      = k0_pay8 x0 x1 (ix3 (0 : Fin 1) p q) := by
  unfold runFirst; dsimp only
  refine (View.read_writes_cons_unit_of_mem arg7.view (harg7.unread xs0) _ _ [] (ix3 s p q) (ix3 (0 : Fin 1) p q) hoff ?_).trans ?_
  · intro a; match a with
    | ⟨0, _⟩ => show s.val = s.val + 0; omega
    | ⟨1, _⟩ => show p.val = 0 + p.val; omega
    | ⟨2, _⟩ => show q.val = 0 + q.val; omega
  · simp only [View.readAt_eq_ld, harg2.read_unread, harg3.read_unread, View.ld_unit_zero (S := S64x64) zeros2, View.ld_unit_zero (S := S4096x64) zeros2]

/-- Off slice 0 it reads what it held. -/
theorem first_slab_off (s : Fin 16) (hoff : k0_off1 i = ![s.val, 0, 0]) (s' : Fin 16) (hne : s'.val ≠ s.val) (p : Fin 64) (q : Fin 4096) :
    arg7.view.read (Elt F) (arg7.view.writes (Elt F) (harg7.unread xs0) (runFirst c i arg2 harg2 arg3 harg3 arg4 harg4 arg5 harg5 arg6 harg6 arg7 harg7 arg8 harg8 arg9 harg9 hc0 hc1 hc2 x0 x1 x2 xs0).1) (ix3 s' p q)
      = xs0 (ix3 s' p q) := by
  unfold runFirst; dsimp only
  refine (View.read_writes_cons_unit_of_not_mem arg7.view (harg7.unread xs0) _ _ [] (ix3 s' p q) hoff (0 : Fin 3) ?_).trans ?_
  · show s'.val < s.val ∨ s.val + 1 ≤ s'.val; omega
  · rw [View.writes_nil]; exact congrFun (harg7.read_unread xs0) _

end First

section Scale

variable (c : Dev nD) (i : grid0.Coords) (arg2 : Memref sig .tc .vmem S64x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S64x4096 .f32) (harg5 : arg5.IsWhole) (arg6 : Memref sig .tc .vmem S64x64 .f32) (harg6 : arg6.IsWhole) (arg7 : Memref sig .tc .vmem S16x64x4096 .f32) (harg7 : arg7.IsWhole) (arg8 : Memref sig .tc .vmem S64x1 .f32) (harg8 : arg8.IsWhole) (arg9 : Memref sig .tc .vmem S64x64 .f32) (harg9 : arg9.IsWhole) (hc0 : ¬isFirst i) (hc1 : ¬isAccum i) (hc2 : isScale i)
    (xs0 : Vec F S16x64x4096 .f32) (xs1 : Vec F S64x1 .f32) (xs2 : Vec F S64x64 .f32)

/-- The weights' buffer after a second-phase point: the point's slice of the stored exponentials, scaled by one over the row sums. -/
theorem scale_weights (f : arg5.view.ty.Contents (Elt F)) :
    arg5.view.read (Elt F) (arg5.view.writes (Elt F) f (runScale c i arg2 harg2 arg3 harg3 arg4 harg4 arg5 harg5 arg6 harg6 arg7 harg7 arg8 harg8 arg9 harg9 hc0 hc1 hc2 xs0 xs1 xs2).1)
      = k0_pay5 xs1 (View.ld xs0 (Rect.unit (s := S16x64x4096) (k0_off2 i) S1x64x4096.size (k0_off2_inb i hc2))) := by
  unfold runScale; dsimp only
  sl_unfold_run_names
  funext y
  refine (View.read_writes_cons_unit_of_mem arg5.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg7.read_unread, harg8.read_unread, View.ld_unit_zero (S := S64x1) zeros2]

/-- The retrieved values' buffer after a second-phase point: the unnormalised values scaled by one over the row sums. -/
theorem scale_values (f : arg6.view.ty.Contents (Elt F)) :
    arg6.view.read (Elt F) (arg6.view.writes (Elt F) f (runScale c i arg2 harg2 arg3 harg3 arg4 harg4 arg5 harg5 arg6 harg6 arg7 harg7 arg8 harg8 arg9 harg9 hc0 hc1 hc2 xs0 xs1 xs2).2.1) = k0_pay6 xs1 xs2 := by
  unfold runScale; dsimp only
  sl_unfold_run_names
  funext y
  refine (View.read_writes_cons_unit_of_mem arg6.view f _ _ [] y y rfl (fun a => ?_)).trans ?_
  · match a with
    | ⟨0, _⟩ => show (y 0).val = 0 + (y 0).val; omega
    | ⟨1, _⟩ => show (y 1).val = 0 + (y 1).val; omega
  · simp only [View.readAt_eq_ld, harg8.read_unread, harg9.read_unread, View.ld_unit_zero (S := S64x1) zeros2, View.ld_unit_zero (S := S64x64) zeros2]

end Scale

end Cert.KernelIdeal.Body

end
-- ==== Proof.KI.State.lean ====
/-
  The contents the kernel carries from grid point to grid point, as functions of the argument arrays.
  With Q the query block, K_t and V_t the key and value tiles of point t (t < 16):
    the tile's exponentials  E_t = k0_pay7 Q K_t  (stored as slice t of the exponentials' buffer, `slabAt`),
    the running row sums     s_0 = 0 + rowsum E_0,  s_t = s_(t-1) + rowsum E_t,
    the running values       a_0 = 0 + E_0 · V_0,   a_t = a_(t-1) + E_t · V_t,
  both frozen from point 16 on (`accs`). At point 16 + s the weights' buffer is left at slice s scaled by 1 / s_15 and
  the retrieved values' buffer at a_15 scaled by 1 / s_15 (`outW`, `outP`).
-/
import proofs.«109230_g9234179687032_cont_9to1c4b_825_2_alg».proof.Proof.KI.Setup
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The query block at point `t` (the whole query array, at every point). -/
abbrev qblk (c : Dev nD) (t : Fin cfg0.N) : Vec F S64x64 .f32 := iblk m c 0 t
/-- The key tile at point `t`. -/
abbrev kblk (c : Dev nD) (t : Fin cfg0.N) : Vec F S4096x64 .f32 := iblk m c 1 t
/-- The value tile at point `t`. -/
abbrev vblk (c : Dev nD) (t : Fin cfg0.N) : Vec F S4096x64 .f32 := iblk m c 2 t

/-- The running row sums and running retrieved values after point `n`. -/
def accs (c : Dev nD) : (n : ℕ) → n < cfg0.N → Vec F S64x1 .f32 × Vec F S64x64 .f32
  | 0, hn => (k0_pay9 (qblk m c ⟨0, hn⟩) (kblk m c ⟨0, hn⟩) k0_pay1,
      k0_pay3 (k0_pay10 (qblk m c ⟨0, hn⟩) (kblk m c ⟨0, hn⟩) k0_pay2 (vblk m c ⟨0, hn⟩)))
  | n + 1, hn =>
    if n + 1 < 16 then
      (k0_pay9 (qblk m c ⟨n + 1, hn⟩) (kblk m c ⟨n + 1, hn⟩) (accs c n (Nat.lt_of_succ_lt hn)).1,
        k0_pay3 (k0_pay10 (qblk m c ⟨n + 1, hn⟩) (kblk m c ⟨n + 1, hn⟩) (accs c n (Nat.lt_of_succ_lt hn)).2 (vblk m c ⟨n + 1, hn⟩)))
    else accs c n (Nat.lt_of_succ_lt hn)

theorem accs_zero (c : Dev nD) (hn : 0 < cfg0.N) :
    accs m c 0 hn = (k0_pay9 (qblk m c ⟨0, hn⟩) (kblk m c ⟨0, hn⟩) k0_pay1,
      k0_pay3 (k0_pay10 (qblk m c ⟨0, hn⟩) (kblk m c ⟨0, hn⟩) k0_pay2 (vblk m c ⟨0, hn⟩))) := rfl

theorem accs_succ_lt (c : Dev nD) (n : ℕ) (hn : n + 1 < cfg0.N) (h : n + 1 < 16) :
    accs m c (n + 1) hn = (k0_pay9 (qblk m c ⟨n + 1, hn⟩) (kblk m c ⟨n + 1, hn⟩) (accs m c n (Nat.lt_of_succ_lt hn)).1,
      k0_pay3 (k0_pay10 (qblk m c ⟨n + 1, hn⟩) (kblk m c ⟨n + 1, hn⟩) (accs m c n (Nat.lt_of_succ_lt hn)).2 (vblk m c ⟨n + 1, hn⟩))) :=
  if_pos h

theorem accs_succ_ge (c : Dev nD) (n : ℕ) (hn : n + 1 < cfg0.N) (h : ¬ n + 1 < 16) :
    accs m c (n + 1) hn = accs m c n (Nat.lt_of_succ_lt hn) :=
  if_neg h

/-- `accs` at the first point. -/
theorem accs_zero_of (c : Dev nD) (t : Fin cfg0.N) (hz : t.val = 0) :
    accs m c t.val t.isLt = (k0_pay9 (qblk m c t) (kblk m c t) k0_pay1, k0_pay3 (k0_pay10 (qblk m c t) (kblk m c t) k0_pay2 (vblk m c t))) := by
  obtain ⟨n, hn⟩ := t
  cases n with
  | zero => rfl
  | succ n => exact absurd hz (Nat.succ_ne_zero n)

/-- `accs` at a later first-phase point: one more tile over what the point before left. -/
theorem accs_pos_lt (c : Dev nD) (t : Fin cfg0.N) (hz : t.val ≠ 0) (h : t.val < 16) :
    accs m c t.val t.isLt = (k0_pay9 (qblk m c t) (kblk m c t) (accs m c (t.val - 1) (Nat.lt_of_le_of_lt (Nat.sub_le _ _) t.isLt)).1,
      k0_pay3 (k0_pay10 (qblk m c t) (kblk m c t) (accs m c (t.val - 1) (Nat.lt_of_le_of_lt (Nat.sub_le _ _) t.isLt)).2 (vblk m c t))) := by
  obtain ⟨n, hn⟩ := t
  cases n with
  | zero => exact absurd rfl hz
  | succ n => exact accs_succ_lt m c n hn h

/-- `accs` at a second-phase point: what the point before left. -/
theorem accs_pos_ge (c : Dev nD) (t : Fin cfg0.N) (hz : t.val ≠ 0) (h : ¬ t.val < 16) :
    accs m c t.val t.isLt = accs m c (t.val - 1) (Nat.lt_of_le_of_lt (Nat.sub_le _ _) t.isLt) := by
  obtain ⟨n, hn⟩ := t
  cases n with
  | zero => exact absurd rfl hz
  | succ n => exact accs_succ_ge m c n hn h

/-- The first-phase point that handled tile `s`. -/
abbrev tilePt (s : Fin 16) : Fin cfg0.N := ⟨s.val, lt_of_lt_of_eq (by have := s.isLt; omega : s.val < 32) N_eq.symm⟩

/-- Slice `s` of the exponentials' buffer once its point has run: tile `s`'s exponentials. -/
def slabAt (c : Dev nD) (s : Fin 16) : Vec F S1x64x4096 .f32 := k0_pay8 (qblk m c (tilePt s)) (kblk m c (tilePt s))

/-- Contents of the exponentials' buffer that agree with the tiles' exponentials on every slice up to `n`. -/
def Agrees (c : Dev nD) (n : ℕ) (X : Vec F S16x64x4096 .f32) : Prop :=
  ∀ s : Fin 16, s.val ≤ n → ∀ (p : Fin 64) (q : Fin 4096), X (ix3 s p q) = slabAt m c s (ix3 (0 : Fin 1) p q)

/-- The slice a second-phase point reads: slice `t - 16`. -/
abbrev sliceOf (t : Fin cfg0.N) : Fin 16 := ⟨t.val % 16, Nat.mod_lt _ (by omega)⟩

/-- What a second-phase point leaves in the weights' buffer. -/
def outW (c : Dev nD) (t : Fin cfg0.N) : Vec F S64x4096 .f32 :=
  k0_pay5 (accs m c (t.val - 1) (Nat.lt_of_le_of_lt (Nat.sub_le _ _) t.isLt)).1 (slabAt m c (sliceOf t))

/-- What a second-phase point leaves in the retrieved values' buffer. -/
def outP (c : Dev nD) (t : Fin cfg0.N) : Vec F S64x64 .f32 :=
  k0_pay6 (accs m c (t.val - 1) (Nat.lt_of_le_of_lt (Nat.sub_le _ _) t.isLt)).1 (accs m c (t.val - 1) (Nat.lt_of_le_of_lt (Nat.sub_le _ _) t.isLt)).2

end Cert.KernelIdeal.Body

end
-- ==== Proof.KI.Frame.lean ====
/-
  The frame of the one pallas_call, with every buffer's contents named.
  The invariant between points: before the first point the scratch buffers hold anything; after point n the
  exponentials' buffer holds SOME contents that agree with the tiles' exponentials on every slice up to n (the slices
  not yet written are whatever the buffer held at launch), and the two accumulators hold the running sums and running
  values of the State module. At each point the body is one of the three runs; the input windows hold their blocks,
  the output windows are idle (left as found) through the first phase and are left at the scaled slice and the scaled
  values at each point of the second.
-/
import proofs.«109230_g9234179687032_cont_9to1c4b_825_2_alg».proof.Proof.KI.Contents
import proofs.«109230_g9234179687032_cont_9to1c4b_825_2_alg».proof.Proof.KI.State

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## Where the slice stores and loads fall -/

/-- At point t of the first phase the body stores slice t. -/
theorem storeOff_eq : ∀ t : Fin cfg0.N, t.val < 16 → k0_off1 (grid0.coords t) = ![t.val % 16, 0, 0] :=
  (by decide +kernel : ∀ t : Fin grid0.N, t.val < 16 → k0_off1 (grid0.coords t) = ![t.val % 16, 0, 0])
/-- At point t of the second phase the body loads slice t - 16. -/
theorem loadOff_eq : ∀ t : Fin cfg0.N, 16 ≤ t.val → k0_off2 (grid0.coords t) = ![t.val % 16, 0, 0] :=
  (by decide +kernel : ∀ t : Fin grid0.N, 16 ≤ t.val → k0_off2 (grid0.coords t) = ![t.val % 16, 0, 0])

/-! ## The invariant -/

/-- What the region holds besides the windows before point `n`. -/
def Inv (c : Dev nD) : (n : ℕ) → n ≤ cfg0.N → sProp 𝕄
  | 0, _ => Pipeline.ΦA spec0 c
  | n + 1, hn => iprop(iprop((∃ X, ⌜Agrees m c n X⌝ ∗ owns (c : Thread nD τ) scrE fullShare X) ∗ owns (c : Thread nD τ) scrS fullShare ((accs m c n hn).1) ∗ owns (c : Thread nD τ) scrA fullShare ((accs m c n hn).2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop((∃ X, ⌜Agrees m c n X⌝ ∗ owns (c : Thread nD τ) scrE fullShare X) ∗ owns (c : Thread nD τ) scrS fullShare ((accs m c n hn).1) ∗ owns (c : Thread nD τ) scrA fullShare ((accs m c n hn).2)) ∗ (∃ r, prngReg c r)) := rfl

theorem Inv_pos (c : Dev nD) (n : ℕ) (h : n ≤ cfg0.N) (hz : n ≠ 0) :
    Inv m c n h = iprop(iprop((∃ X, ⌜Agrees m c (n - 1) X⌝ ∗ owns (c : Thread nD τ) scrE fullShare X) ∗ owns (c : Thread nD τ) scrS fullShare ((accs m c (n - 1) (by omega)).1) ∗ owns (c : Thread nD τ) scrA fullShare ((accs m c (n - 1) (by omega)).2)) ∗ (∃ r, prngReg c r)) := by
  cases n with
  | zero => exact absurd rfl hz
  | succ n => rfl

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outW m c t
    | ⟨4, _⟩ => outP m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outW m c t := by dsimp only [dats]
theorem after_4 (c : Dev nD) (t : Fin cfg0.N) : (dats m 0 c).after 4 t = outP m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The agreement after a first-phase point's store: the written slice reads the tile's exponentials, the earlier
    slices what they did. -/
theorem agrees_step (c : Dev nD) (t : Fin cfg0.N) (ht : t.val < 16) (X X' : Vec F S16x64x4096 .f32)
    (hprev : t.val ≠ 0 → Agrees m c (t.val - 1) X)
    (hon : ∀ (p : Fin 64) (q : Fin 4096), X' (ix3 (sliceOf t) p q) = k0_pay8 (qblk m c t) (kblk m c t) (ix3 (0 : Fin 1) p q))
    (hoff : ∀ (s' : Fin 16), s'.val ≠ (sliceOf t).val → ∀ (p : Fin 64) (q : Fin 4096), X' (ix3 s' p q) = X (ix3 s' p q)) :
    Agrees m c t.val X' := by
  intro s hs p q
  have hmod : t.val % 16 = t.val := Nat.mod_eq_of_lt ht
  by_cases hst : s.val = t.val
  · have hse : s = sliceOf t := Fin.ext (by show s.val = t.val % 16; omega)
    have hpt : tilePt s = t := Fin.ext (by show s.val = t.val; exact hst)
    subst hse
    rw [hon p q]; unfold slabAt; rw [hpt]
  · have hne : s.val ≠ (sliceOf t).val := by show s.val ≠ t.val % 16; omega
    rw [hoff s hne p q]
    have h0 : t.val ≠ 0 := by omega
    exact hprev h0 s (by omega) p q

set_option maxHeartbeats 4000000 in
/-- The body at the first point: the scratch buffers arrive at anything; the reset-and-accumulate run leaves slice 0 written and the accumulators at the first tile's sums and values. -/
theorem sound_first (c : Dev nD) (t : Fin cfg0.N) (hz : t.val = 0) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ]
  have hN : t.val < 32 := lt_of_lt_of_eq t.isLt N_eq
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  have h1 : t.val < 16 := by omega
  have hi3 : cfg0.idle 3 (cfg0.grid.coords t) = true := (idle_3 t).trans (decide_eq_true h1)
  have hi4 : cfg0.idle 4 (cfg0.grid.coords t) = true := (idle_4 t).trans (decide_eq_true h1)
  have hf3 : (cfg0.win 3).flush t = false := (flush_3 t).trans (decide_eq_false (by omega))
  have hf4 : (cfg0.win 4).flush t = false := (flush_4 t).trans (decide_eq_false (by omega))
  rw [Dat.leavesExact_idle _ 3 t hi3 hf3, Dat.leavesExact_idle _ 4 t hi4 hf4]
  have hacc : isAccum (grid0.coords t) := (isAccum_iff t).mpr h1
  have hnsc : ¬isScale (grid0.coords t) := fun h => absurd ((isScale_iff t).mp h) (by omega)
  have hoff : k0_off1 (grid0.coords t) = ![(sliceOf t).val, 0, 0] := storeOff_eq t h1
  have hfst : isFirst (grid0.coords t) := (isFirst_iff t).mpr hz
  rw [Inv_castSucc m c t, Inv_zero m c _ _ hz, PhiA_eq]
  iintro ⟨⟨⟨⟨%X, HS0⟩, HS1, HS2⟩, Hg⟩, Ho, ⟨%d0, H0⟩, ⟨%d1, H1⟩, ⟨%d2, H2⟩, H3, H4⟩
  iapply ((runFirst c (grid0.coords t) _ _ _ _ _ _ (stg3 t) (hstg3 t) (stg4 t) (hstg4 t) scrE (Memref.isWhole_whole _) scrS (Memref.isWhole_whole _) scrA (Memref.isWhole_whole _) hfst hacc hnsc (iblk m c 0 t) (iblk m c 1 t) (iblk m c 2 t) X).2.2.2 Set.univ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, ⟨%es1, HS1⟩, ⟨%es2, HS2⟩⟩
  isplitl [HS0 HS1 HS2 Hg]
  · isplitl [HS0 HS1 HS2]
    · isplitl [HS0]
      · iexists _; isplitr
        swap; · iapply (owns_intro (c : Thread nD τ) scrE fullShare _); iexact HS0
        ipureintro
        exact agrees_step m c t h1 X _ (fun h => absurd hz h)
          (fun p q => first_slab_on c _ _ _ _ _ _ _ _ _ _ _ _ _ _ _ _ _ hfst hacc hnsc _ _ _ X (sliceOf t) hoff p q)
          (fun s' hne p q => first_slab_off c _ _ _ _ _ _ _ _ _ _ _ _ _ _ _ _ _ hfst hacc hnsc _ _ _ X (sliceOf t) hoff s' hne p q)
      isplitl [HS1]
      · rw [accs_zero_of m c t hz]
        unfold owns; iexists _; isplitr
        swap; · iexact HS1
        ipureintro; exact first_sums c _ _ _ _ _ _ _ _ _ _ _ _ _ _ _ _ _ hfst hacc hnsc _ _ _ X es1
      rw [accs_zero_of m c t hz]
      unfold owns; iexists _; isplitr
      swap; · iexact HS2
      ipureintro; exact first_vals c _ _ _ _ _ _ _ _ _ _ _ _ _ _ _ _ _ hfst hacc hnsc _ _ _ X es2
    iexact Hg
  isplitl [Ho]; · iexact Ho
  isplitl [H0]; · iexact H0
  isplitl [H1]; · iexact H1
  isplitl [H2]; · iexact H2
  isplitl [H3]; · iexact H3
  iexact H4

set_option maxHeartbeats 4000000 in
/-- The body at a later point of the first phase: the accumulate run over what the point before left. -/
theorem sound_accum (c : Dev nD) (t : Fin cfg0.N) (hz : t.val ≠ 0) (h1 : t.val < 16) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ]
  have hN : t.val < 32 := lt_of_lt_of_eq t.isLt N_eq
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  have hi3 : cfg0.idle 3 (cfg0.grid.coords t) = true := (idle_3 t).trans (decide_eq_true h1)
  have hi4 : cfg0.idle 4 (cfg0.grid.coords t) = true := (idle_4 t).trans (decide_eq_true h1)
  have hf3 : (cfg0.win 3).flush t = false := (flush_3 t).trans (decide_eq_false (by omega))
  have hf4 : (cfg0.win 4).flush t = false := (flush_4 t).trans (decide_eq_false (by omega))
  rw [Dat.leavesExact_idle _ 3 t hi3 hf3, Dat.leavesExact_idle _ 4 t hi4 hf4]
  have hacc : isAccum (grid0.coords t) := (isAccum_iff t).mpr h1
  have hnsc : ¬isScale (grid0.coords t) := fun h => absurd ((isScale_iff t).mp h) (by omega)
  have hoff : k0_off1 (grid0.coords t) = ![(sliceOf t).val, 0, 0] := storeOff_eq t h1
  have hnfst : ¬isFirst (grid0.coords t) := fun h => hz ((isFirst_iff t).mp h)
  rw [Inv_castSucc m c t, Inv_pos m c _ _ hz]
  iintro ⟨⟨⟨⟨%X, %hX, HS0⟩, HS1, HS2⟩, Hg⟩, Ho, ⟨%d0, H0⟩, ⟨%d1, H1⟩, ⟨%d2, H2⟩, H3, H4⟩
  iapply ((runAccum c (grid0.coords t) _ _ _ _ _ _ (stg3 t) (hstg3 t) (stg4 t) (hstg4 t) scrE (Memref.isWhole_whole _) scrS (Memref.isWhole_whole _) scrA (Memref.isWhole_whole _) hnfst hacc hnsc (iblk m c 0 t) (iblk m c 1 t) (iblk m c 2 t) X _ _).2.2.2 Set.univ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, ⟨%es1, HS1⟩, ⟨%es2, HS2⟩⟩
  isplitl [HS0 HS1 HS2 Hg]
  · isplitl [HS0 HS1 HS2]
    · isplitl [HS0]
      · iexists _; isplitr
        swap; · iapply (owns_intro (c : Thread nD τ) scrE fullShare _); iexact HS0
        ipureintro
        exact agrees_step m c t h1 X _ (fun _ => hX)
          (fun p q => accum_slab_on c _ _ _ _ _ _ _ _ _ _ _ _ _ _ _ _ _ hnfst hacc hnsc _ _ _ X _ _ (sliceOf t) hoff p q)
          (fun s' hne p q => accum_slab_off c _ _ _ _ _ _ _ _ _ _ _ _ _ _ _ _ _ hnfst hacc hnsc _ _ _ X _ _ (sliceOf t) hoff s' hne p q)
      isplitl [HS1]
      · rw [accs_pos_lt m c t hz h1]
        unfold owns; iexists _; isplitr
        swap; · iexact HS1
        ipureintro; exact accum_sums c _ _ _ _ _ _ _ _ _ _ _ _ _ _ _ _ _ hnfst hacc hnsc _ _ _ X _ _ es1
      rw [accs_pos_lt m c t hz h1]
      unfold owns; iexists _; isplitr
      swap; · iexact HS2
      ipureintro; exact accum_vals c _ _ _ _ _ _ _ _ _ _ _ _ _ _ _ _ _ hnfst hacc hnsc _ _ _ X _ _ es2
    iexact Hg
  isplitl [Ho]; · iexact Ho
  isplitl [H0]; · iexact H0
  isplitl [H1]; · iexact H1
  isplitl [H2]; · iexact H2
  isplitl [H3]; · iexact H3
  iexact H4

set_option maxHeartbeats 4000000 in
/-- The body at a point of the second phase: every slice is known by now, so the slice the point loads is its tile's exponentials; the scratch buffers come back unchanged and the outputs at the scaled slice and values. -/
theorem sound_scale (c : Dev nD) (t : Fin cfg0.N) (h1 : ¬ t.val < 16) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ]
  have hN : t.val < 32 := lt_of_lt_of_eq t.isLt N_eq
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  have h16 : 16 ≤ t.val := by omega
  have hz : t.val ≠ 0 := by omega
  have hi3 : cfg0.idle 3 (cfg0.grid.coords t) = false := (idle_3 t).trans (decide_eq_false h1)
  have hi4 : cfg0.idle 4 (cfg0.grid.coords t) = false := (idle_4 t).trans (decide_eq_false h1)
  rw [show (dats m 0 c).leavesExact 3 t = owns (c : Thread nD τ) (stg3 t) fullShare ((dats m 0 c).after 3 t) from by
    unfold Dat.leavesExact; rw [hi3], after_3]
  rw [show (dats m 0 c).leavesExact 4 t = owns (c : Thread nD τ) (stg4 t) fullShare ((dats m 0 c).after 4 t) from by
    unfold Dat.leavesExact; rw [hi4], after_4]
  have hnfst : ¬isFirst (grid0.coords t) := fun h => hz ((isFirst_iff t).mp h)
  have hnacc : ¬isAccum (grid0.coords t) := fun h => h1 ((isAccum_iff t).mp h)
  have hsc : isScale (grid0.coords t) := (isScale_iff t).mpr h16
  have hoff : k0_off2 (grid0.coords t) = ![(sliceOf t).val, 0, 0] := loadOff_eq t h16
  rw [Inv_castSucc m c t, Inv_pos m c _ _ hz]
  iintro ⟨⟨⟨⟨%X, %hX, HS0⟩, HS1, HS2⟩, Hg⟩, Ho, ⟨%d0, H0⟩, ⟨%d1, H1⟩, ⟨%d2, H2⟩, ⟨%d3, H3⟩, ⟨%d4, H4⟩⟩
  iapply ((runScale c (grid0.coords t) (stg0 t) (hstg0 t) (stg1 t) (hstg1 t) (stg2 t) (hstg2 t) _ _ _ _ scrE (Memref.isWhole_whole _) scrS (Memref.isWhole_whole _) scrA (Memref.isWhole_whole _) hnfst hnacc hsc X _ _).2.2 Set.univ _)
  isplitl [H3]; · iexists _; iexact H3
  isplitl [H4]; · iexists _; iexact H4
  isplitl [HS0]; · iexact HS0
  isplitl [HS1]; · iexact HS1
  isplitl [HS2]; · iexact HS2
  iintro ⟨⟨%e3, H3⟩, ⟨%e4, H4⟩, HS0, HS1, HS2⟩
  isplitl [HS0 HS1 HS2 Hg]
  · isplitl [HS0 HS1 HS2]
    · isplitl [HS0]
      · iexists X; isplitr
        swap; · iexact HS0
        ipureintro
        intro s hs p q
        exact hX s (by have := s.isLt; omega) p q
      rw [accs_pos_ge m c t hz h1]
      isplitl [HS1]; · iexact HS1
      iexact HS2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro
    rw [scale_weights c _ _ _ _ _ _ _ _ _ _ _ _ _ _ _ _ _ hnfst hnacc hsc X _ _ e3]
    unfold outW
    congr 1
    funext y
    obtain ⟨a, p, q, rfl⟩ : ∃ (a : Fin 1) (p : Fin 64) (q : Fin 4096), y = ix3 a p q := ⟨y 0, y 1, y 2, eq_ix3 y⟩
    have ha : a = 0 := Fin.ext (by omega)
    subst ha
    refine Eq.trans ?_ (hX (sliceOf t) (by have := (sliceOf t).isLt; omega) p q)
    show X _ = X _
    congr 1
    funext b
    match b with
    | ⟨0, _⟩ => exact Fin.ext (by show k0_off2 (grid0.coords t) 0 + 1 * 0 = (sliceOf t).val; rw [hoff]; rfl)
    | ⟨1, _⟩ => exact Fin.ext (by show k0_off2 (grid0.coords t) 1 + 1 * p.val = p.val; rw [hoff]; show 0 + 1 * p.val = p.val; omega)
    | ⟨2, _⟩ => exact Fin.ext (by show k0_off2 (grid0.coords t) 2 + 1 * q.val = q.val; rw [hoff]; show 0 + 1 * q.val = q.val; omega)
  unfold owns; iexists _; isplitr
  swap; · iexact H4
  ipureintro
  rw [scale_values c _ _ _ _ _ _ _ _ _ _ _ _ _ _ _ _ _ hnfst hnacc hsc X _ _ e4]
  rfl

/-- The body at any point: one of the three cases. -/
theorem sound_body (c : Dev nD) (t : Fin cfg0.N) :
    bodyPre m c t ⊢ wp Idealize.ShloMosaic.frame (wpE (defs₀ (F := F)) Variants.none c none) Set.univ (bodyAt0 t) (fun _ => bodyPost m c t) := by
  by_cases h1 : t.val < 16
  · by_cases hz : t.val = 0
    · exact sound_first m c t hz
    · exact sound_accum m c t hz h1
  · exact sound_scale m c t h1

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 32 := N_eq; omega), PhiA_eq]
  iintro ⟨⟨⟨%X, -, HS0⟩, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, every array of the pipeline at what the proof data compute and
    every other unscoped buffer at its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Blocks.lean ====
/-
  The windows' blocks as parts of the argument arrays. The query window's block is the whole query array at every
  point; the key and value windows' block at point s of the first phase is rows 4096·s … 4096·s + 4095 of the table.
-/
import proofs.«109230_g9234179687032_cont_9to1c4b_825_2_alg».proof.Proof.KI.State

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The query array as the region finds it. -/
abbrev qArr (c : Dev nD) : Vec F S64x64 .f32 := V m c main_arg0
/-- The key table as the region finds it. -/
abbrev kArr (c : Dev nD) : Vec F S65536x64 .f32 := V m c main_arg1
/-- The value table as the region finds it. -/
abbrev vArr (c : Dev nD) : Vec F S65536x64 .f32 := V m c main_arg2

/-- Row `j` of tile `s` is row `4096·s + j` of the table. -/
abbrev rowOf (s : Fin 16) (j : Fin 4096) : Fin 65536 := ⟨4096 * s.val + j.val, by have := s.isLt; have := j.isLt; omega⟩

/-- The query window's block index is (0, 0) at every point. -/
theorem win0_index : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The key window's block index at a first-phase point `t` is (t, 0). -/
theorem win1_index : ∀ t : Fin cfg0.N, t.val < 16 → win0_1.index t (0 : Fin 2) = t.val ∧ win0_1.index t (1 : Fin 2) = 0 :=
  (by decide +kernel : ∀ t : Fin grid0.N, t.val < 16 → win0_1.index t (0 : Fin 2) = t.val ∧ win0_1.index t (1 : Fin 2) = 0)

/-- The value window's block index at a first-phase point `t` is (t, 0). -/
theorem win2_index : ∀ t : Fin cfg0.N, t.val < 16 → win0_2.index t (0 : Fin 2) = t.val ∧ win0_2.index t (1 : Fin 2) = 0 :=
  (by decide +kernel : ∀ t : Fin grid0.N, t.val < 16 → win0_2.index t (0 : Fin 2) = t.val ∧ win0_2.index t (1 : Fin 2) = 0)

theorem qblk_apply (c : Dev nD) (t : Fin cfg0.N) (p d : Fin 64) : qblk m c t (ix2 p d) = qArr m c (ix2 p d) := by
  have hi := win0_index t
  unfold qblk iblk
  rw [View.read_apply]
  show V m c main_arg0 (((cfg0.win 0).blk t).view.emb (ix2 p d)) = V m c main_arg0 (ix2 p d)
  congr 1
  funext a
  apply Fin.ext
  match a with
  | ⟨0, _⟩ => show win0_0.index t (0 : Fin 2) * 64 + 1 * p.val = p.val; rw [hi.1]; omega
  | ⟨1, _⟩ => show win0_0.index t (1 : Fin 2) * 64 + 1 * d.val = d.val; rw [hi.2]; omega

theorem kblk_apply (c : Dev nD) (s : Fin 16) (j : Fin 4096) (d : Fin 64) :
    kblk m c (tilePt s) (ix2 j d) = kArr m c (ix2 (rowOf s j) d) := by
  have hi : win0_1.index (tilePt s) (0 : Fin 2) = s.val ∧ win0_1.index (tilePt s) (1 : Fin 2) = 0 :=
    win1_index (tilePt s) s.isLt
  unfold kblk iblk
  rw [View.read_apply]
  show V m c main_arg1 (((cfg0.win 1).blk (tilePt s)).view.emb (ix2 j d)) = V m c main_arg1 (ix2 (rowOf s j) d)
  congr 1
  funext a
  apply Fin.ext
  match a with
  | ⟨0, _⟩ => show win0_1.index (tilePt s) (0 : Fin 2) * 4096 + 1 * j.val = 4096 * s.val + j.val; rw [hi.1]; omega
  | ⟨1, _⟩ => show win0_1.index (tilePt s) (1 : Fin 2) * 64 + 1 * d.val = d.val; rw [hi.2]; omega

theorem vblk_apply (c : Dev nD) (s : Fin 16) (j : Fin 4096) (d : Fin 64) :
    vblk m c (tilePt s) (ix2 j d) = vArr m c (ix2 (rowOf s j) d) := by
  have hi : win0_2.index (tilePt s) (0 : Fin 2) = s.val ∧ win0_2.index (tilePt s) (1 : Fin 2) = 0 :=
    win2_index (tilePt s) s.isLt
  unfold vblk iblk
  rw [View.read_apply]
  show V m c main_arg2 (((cfg0.win 2).blk (tilePt s)).view.emb (ix2 j d)) = V m c main_arg2 (ix2 (rowOf s j) d)
  congr 1
  funext a
  apply Fin.ext
  match a with
  | ⟨0, _⟩ => show win0_2.index (tilePt s) (0 : Fin 2) * 4096 + 1 * j.val = 4096 * s.val + j.val; rw [hi.1]; omega
  | ⟨1, _⟩ => show win0_2.index (tilePt s) (1 : Fin 2) * 64 + 1 * d.val = d.val; rw [hi.2]; omega

end Cert.KernelIdeal.Body

end
-- ==== Proof.Spec.lean ====
/-
  What both programs compute, as functions of the three argument arrays over the extended reals.

  For a query row b and a memory slot m:
    dotQK b m  = Σ_d x[b,d] · K[m,d]
    qNorm b    = sqrt (Σ_d x[b,d]²),   kNorm m = sqrt (Σ_d K[m,d]²)
    logit b m  = dotQK b m · (ten / max (qNorm b · kNorm m) eps)
    ex b m     = exp (logit b m)
    total b    = Σ_m ex b m
    weights[b,m] = ex b m · (1 / total b)
    pred[b,d]    = (Σ_m ex b m · V[m,d]) · (1 / total b)
  This is the arrangement the kernel uses (exponentials taken directly, one division per row); the reference's
  arrangement (the row maximum subtracted first, each entry divided by its row's sum) is the same function when
  the arguments are finite.
-/
import Idealize.ShloMosaic.PureOps.Ideal
import Idealize.ShloMosaic.Lib.ValueIdx

noncomputable section

open scoped BigOperators

namespace Cert.Spec

open Idealize.ShloMosaic Idealize.ShloMosaic.ValueIdx

/-- The queries' shape, 64 rows of 64 features. -/
abbrev SQ : Shape := ⟨2, ![64, 64]⟩
/-- The memory tables' shape, 65536 slots of 64 features. -/
abbrev SM : Shape := ⟨2, ![65536, 64]⟩
/-- The weights' shape, 64 rows over 65536 slots. -/
abbrev SW : Shape := ⟨2, ![64, 65536]⟩

/-- The floor under the product of norms (the word both programs print for 1e-8). -/
def eps : EReal := Ideal.ofBits .f32 0x322BCC77#32
/-- The temperature (the word both programs print for 10). -/
def ten : EReal := Ideal.ofBits .f32 0x41200000#32

variable (x : SQ.Idx → EReal) (K V : SM.Idx → EReal)

/-- The inner product of query row `b` with key row `m`. -/
def dotQK (b : Fin 64) (m : Fin 65536) : EReal := ∑ d : Fin 64, x (ix2 b d) * K (ix2 m d)
/-- The Euclidean norm of query row `b`. -/
def qNorm (b : Fin 64) : EReal := Ideal.sqrt (∑ d : Fin 64, x (ix2 b d) * x (ix2 b d))
/-- The Euclidean norm of key row `m`. -/
def kNorm (m : Fin 65536) : EReal := Ideal.sqrt (∑ d : Fin 64, K (ix2 m d) * K (ix2 m d))
/-- The scaled cosine similarity, with the temperature divided by the floored product of norms first. -/
def logit (b : Fin 64) (m : Fin 65536) : EReal :=
  dotQK x K b m * Ideal.div ten (max (qNorm x b * kNorm K m) eps)
/-- Its exponential. -/
def ex (b : Fin 64) (m : Fin 65536) : EReal := Ideal.exp (logit x K b m)
/-- The sum of a row's exponentials. -/
def total (b : Fin 64) : EReal := ∑ m : Fin 65536, ex x K b m
/-- The softmax weights. -/
def weights : SW.Idx → EReal := fun i => ex x K (i 0) (i 1) * Ideal.div 1 (total x K (i 0))
/-- The retrieved values. -/
def pred : SQ.Idx → EReal := fun i =>
  (∑ m : Fin 65536, ex x K (i 0) m * V (ix2 m (i 1))) * Ideal.div 1 (total x K (i 0))

/-! ## The reference's arrangement, over any row shift -/

/-- Every entry of an array is a real number (neither infinity). -/
def IsReal {S : Shape} (f : S.Idx → EReal) : Prop := ∀ i, ∃ r : ℝ, f i = (r : EReal)

/-- The scaled cosine similarity as the reference arranges it: the quotient first, then the temperature. -/
def rlogit (b : Fin 64) (m : Fin 65536) : EReal :=
  Ideal.div (dotQK x K b m) (max (qNorm x b * kNorm K m) eps) * ten

variable (M : Fin 64 → EReal)

/-- The exponential of a logit less its row's shift `M b` (the reference shifts by the row maximum). -/
def rex (b : Fin 64) (m : Fin 65536) : EReal := Ideal.exp (rlogit x K b m - M b)
/-- The sum of a row's shifted exponentials, from a zero start. -/
def rtotal (b : Fin 64) : EReal := 0 + ∑ m : Fin 65536, rex x K M b m
/-- The reference's weights: each shifted exponential over its row's sum. -/
def rweights : SW.Idx → EReal := fun i => Ideal.div (rex x K M (i 0) (i 1)) (rtotal x K M (i 0))
/-- The reference's retrieved values: the weights against the value table. -/
def rpred : SQ.Idx → EReal := fun i => ∑ m : Fin 65536, rweights x K M (ix2 (i 0) m) * V (ix2 m (i 1))

end Cert.Spec

end
-- ==== Proof.KI.PayloadAt.lean ====
/-
  The kernel body's arithmetic read at an index, over the extended reals. For a query block x0 (64 × 64), a key tile
  x1 (4096 × 64) and a value tile x2 (4096 × 64):
    the tile's exponentials   e[p,q] = exp ((Σ_d x0[p,d]·x1[q,d]) · (ten / max (‖x0[p]‖ · ‖x1[q]‖) eps)),
    the running sums          s'[p]   = s[p] + Σ_q e[p,q],
    the running values        a'[p,d] = a[p,d] + Σ_q e[p,q]·x2[q,d],
    the scaled outputs        slab[p,q] · (1 / s[p])  and  a[p,d] · (1 / s[p]).
-/
import proofs.«109230_g9234179687032_cont_9to1c4b_825_2_alg».proof.Proof.Gen.KernelIdeal.Skeleton
import proofs.«109230_g9234179687032_cont_9to1c4b_825_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## Layout operations at an index -/

section Layout
variable {α : Type}

/-- A column `[a]` cast to `[a, 1]` reads, at `(p, u)`, the operand at `p`: both row-major positions are `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## A lane sum at an index -/

/-- The sum over the second axis of an `[a, b]` array, read at row `p`, is the sum of that row's entries. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ d : Fin b, v (ix2 p d) := by
  refine (Ideal.multiReduction_add_single v _ h hφ hacc (ix1 p)).trans ?_
  refine Finset.sum_congr rfl fun d _ => congrArg v (funext fun ax => ?_)
  match ax with
  | ⟨0, _⟩ => rfl
  | ⟨1, _⟩ => rfl

/-! ## The three contractions at an index -/

/-! ### Query rows against key rows: `[64, 64]` by `[4096, 64]`, contracted over the features -/

theorem qk_lhs_0 (i : S64x4096.Idx) (k : dot_S64x64_S4096x64_S64x4096_1_1_0_0_n_n.contr.Idx) :
    (dot_S64x64_S4096x64_S64x4096_1_1_0_0_n_n.lhsIdx i k 0).val = (i 0).val := by
  unfold DotDims.lhsIdx
  rw [dif_neg (show ¬(0 : Fin S64x64.rank) ∈ dot_S64x64_S4096x64_S64x4096_1_1_0_0_n_n.lhsBatch by decide), dif_pos (show (0 : Fin S64x64.rank) ∈ dot_S64x64_S4096x64_S64x4096_1_1_0_0_n_n.lhsNonContracting by decide)]
  rfl
theorem qk_lhs_1 (i : S64x4096.Idx) (k : dot_S64x64_S4096x64_S64x4096_1_1_0_0_n_n.contr.Idx) :
    (dot_S64x64_S4096x64_S64x4096_1_1_0_0_n_n.lhsIdx i k 1).val = (k ⟨0, by decide⟩).val :=
  dot_S64x64_S4096x64_S64x4096_1_1_0_0_n_n.lhsIdx_val_of_single rfl i k
theorem qk_rhs_0 (i : S64x4096.Idx) (k : dot_S64x64_S4096x64_S64x4096_1_1_0_0_n_n.contr.Idx) :
    (dot_S64x64_S4096x64_S64x4096_1_1_0_0_n_n.rhsIdx i k 0).val = (i 1).val := by
  unfold DotDims.rhsIdx
  rw [dif_neg (show ¬(0 : Fin S4096x64.rank) ∈ dot_S64x64_S4096x64_S64x4096_1_1_0_0_n_n.rhsBatch by decide), dif_pos (show (0 : Fin S4096x64.rank) ∈ dot_S64x64_S4096x64_S64x4096_1_1_0_0_n_n.rhsNonContracting by decide)]
  rfl
theorem qk_rhs_1 (i : S64x4096.Idx) (k : dot_S64x64_S4096x64_S64x4096_1_1_0_0_n_n.contr.Idx) :
    (dot_S64x64_S4096x64_S64x4096_1_1_0_0_n_n.rhsIdx i k 1).val = (k ⟨0, by decide⟩).val :=
  dot_S64x64_S4096x64_S64x4096_1_1_0_0_n_n.rhsIdx_val_of_single rfl i k

/-- Query rows against key rows: `[64, 64]` by `[4096, 64]`, contracted over the features, into a zero accumulator, read at an index: the sum over the contracted coordinate of the products. -/
theorem qk_apply (prec : Option ContractPrecision) (A : FVec Ideal S64x64 .f32) (B : FVec Ideal S4096x64 .f32) (p : Fin 64) (q : Fin 4096) :
    matmul (F := Ideal) dot_S64x64_S4096x64_S64x4096_1_1_0_0_n_n prec A B (constant (F := Ideal) S64x4096 .f32 0x00000000#32) (ix2 p q)
      = ∑ k : Fin 64, A (ix2 p k) * B (ix2 q k) := by
  refine (Ideal.matmul_constant_zero_apply dot_S64x64_S4096x64_S64x4096_1_1_0_0_n_n prec A B (ix2 p q)).trans ?_
  rw [← Equiv.sum_comp (contrEquiv1 dot_S64x64_S4096x64_S64x4096_1_1_0_0_n_n 64 rfl rfl).symm]
  refine Finset.sum_congr rfl fun k _ => ?_
  have hk := contrEquiv1_symm_val dot_S64x64_S4096x64_S64x4096_1_1_0_0_n_n 64 rfl rfl k
  have el : dot_S64x64_S4096x64_S64x4096_1_1_0_0_n_n.lhsIdx (ix2 p q) ((contrEquiv1 dot_S64x64_S4096x64_S64x4096_1_1_0_0_n_n 64 rfl rfl).symm k) = ix2 p k := funext fun ax => Fin.ext (by
    match ax with
    | ⟨0, _⟩ => exact qk_lhs_0 _ _
    | ⟨1, _⟩ => exact (qk_lhs_1 _ _).trans hk)
  have er : dot_S64x64_S4096x64_S64x4096_1_1_0_0_n_n.rhsIdx (ix2 p q) ((contrEquiv1 dot_S64x64_S4096x64_S64x4096_1_1_0_0_n_n 64 rfl rfl).symm k) = ix2 q k := funext fun ax => Fin.ext (by
    match ax with
    | ⟨0, _⟩ => exact qk_rhs_0 _ _
    | ⟨1, _⟩ => exact (qk_rhs_1 _ _).trans hk)
  rw [el, er]

/-! ### One row against key rows: `[1, 64]` by `[4096, 64]`, contracted over the features -/

theorem ones_lhs_0 (i : S1x4096.Idx) (k : dot_S1x64_S4096x64_S1x4096_1_1_0_0_n_n.contr.Idx) :
    (dot_S1x64_S4096x64_S1x4096_1_1_0_0_n_n.lhsIdx i k 0).val = (i 0).val := by
  unfold DotDims.lhsIdx
  rw [dif_neg (show ¬(0 : Fin S1x64.rank) ∈ dot_S1x64_S4096x64_S1x4096_1_1_0_0_n_n.lhsBatch by decide), dif_pos (show (0 : Fin S1x64.rank) ∈ dot_S1x64_S4096x64_S1x4096_1_1_0_0_n_n.lhsNonContracting by decide)]
  rfl
theorem ones_lhs_1 (i : S1x4096.Idx) (k : dot_S1x64_S4096x64_S1x4096_1_1_0_0_n_n.contr.Idx) :
    (dot_S1x64_S4096x64_S1x4096_1_1_0_0_n_n.lhsIdx i k 1).val = (k ⟨0, by decide⟩).val :=
  dot_S1x64_S4096x64_S1x4096_1_1_0_0_n_n.lhsIdx_val_of_single rfl i k
theorem ones_rhs_0 (i : S1x4096.Idx) (k : dot_S1x64_S4096x64_S1x4096_1_1_0_0_n_n.contr.Idx) :
    (dot_S1x64_S4096x64_S1x4096_1_1_0_0_n_n.rhsIdx i k 0).val = (i 1).val := by
  unfold DotDims.rhsIdx
  rw [dif_neg (show ¬(0 : Fin S4096x64.rank) ∈ dot_S1x64_S4096x64_S1x4096_1_1_0_0_n_n.rhsBatch by decide), dif_pos (show (0 : Fin S4096x64.rank) ∈ dot_S1x64_S4096x64_S1x4096_1_1_0_0_n_n.rhsNonContracting by decide)]
  rfl
theorem ones_rhs_1 (i : S1x4096.Idx) (k : dot_S1x64_S4096x64_S1x4096_1_1_0_0_n_n.contr.Idx) :
    (dot_S1x64_S4096x64_S1x4096_1_1_0_0_n_n.rhsIdx i k 1).val = (k ⟨0, by decide⟩).val :=
  dot_S1x64_S4096x64_S1x4096_1_1_0_0_n_n.rhsIdx_val_of_single rfl i k

/-- One row against key rows: `[1, 64]` by `[4096, 64]`, contracted over the features, into a zero accumulator, read at an index: the sum over the contracted coordinate of the products. -/
theorem ones_apply (prec : Option ContractPrecision) (A : FVec Ideal S1x64 .f32) (B : FVec Ideal S4096x64 .f32) (u : Fin 1) (q : Fin 4096) :
    matmul (F := Ideal) dot_S1x64_S4096x64_S1x4096_1_1_0_0_n_n prec A B (constant (F := Ideal) S1x4096 .f32 0x00000000#32) (ix2 u q)
      = ∑ k : Fin 64, A (ix2 u k) * B (ix2 q k) := by
  refine (Ideal.matmul_constant_zero_apply dot_S1x64_S4096x64_S1x4096_1_1_0_0_n_n prec A B (ix2 u q)).trans ?_
  rw [← Equiv.sum_comp (contrEquiv1 dot_S1x64_S4096x64_S1x4096_1_1_0_0_n_n 64 rfl rfl).symm]
  refine Finset.sum_congr rfl fun k _ => ?_
  have hk := contrEquiv1_symm_val dot_S1x64_S4096x64_S1x4096_1_1_0_0_n_n 64 rfl rfl k
  have el : dot_S1x64_S4096x64_S1x4096_1_1_0_0_n_n.lhsIdx (ix2 u q) ((contrEquiv1 dot_S1x64_S4096x64_S1x4096_1_1_0_0_n_n 64 rfl rfl).symm k) = ix2 u k := funext fun ax => Fin.ext (by
    match ax with
    | ⟨0, _⟩ => exact ones_lhs_0 _ _
    | ⟨1, _⟩ => exact (ones_lhs_1 _ _).trans hk)
  have er : dot_S1x64_S4096x64_S1x4096_1_1_0_0_n_n.rhsIdx (ix2 u q) ((contrEquiv1 dot_S1x64_S4096x64_S1x4096_1_1_0_0_n_n 64 rfl rfl).symm k) = ix2 q k := funext fun ax => Fin.ext (by
    match ax with
    | ⟨0, _⟩ => exact ones_rhs_0 _ _
    | ⟨1, _⟩ => exact (ones_rhs_1 _ _).trans hk)
  rw [el, er]

/-! ### Tile weights against value rows: `[64, 4096]` by `[4096, 64]`, contracted over the tile's slots -/

theorem ev_lhs_0 (i : S64x64.Idx) (k : dot_S64x4096_S4096x64_S64x64_1_0_0_1_n_n.contr.Idx) :
    (dot_S64x4096_S4096x64_S64x64_1_0_0_1_n_n.lhsIdx i k 0).val = (i 0).val := by
  unfold DotDims.lhsIdx
  rw [dif_neg (show ¬(0 : Fin S64x4096.rank) ∈ dot_S64x4096_S4096x64_S64x64_1_0_0_1_n_n.lhsBatch by decide), dif_pos (show (0 : Fin S64x4096.rank) ∈ dot_S64x4096_S4096x64_S64x64_1_0_0_1_n_n.lhsNonContracting by decide)]
  rfl
theorem ev_lhs_1 (i : S64x64.Idx) (k : dot_S64x4096_S4096x64_S64x64_1_0_0_1_n_n.contr.Idx) :
    (dot_S64x4096_S4096x64_S64x64_1_0_0_1_n_n.lhsIdx i k 1).val = (k ⟨0, by decide⟩).val :=
  dot_S64x4096_S4096x64_S64x64_1_0_0_1_n_n.lhsIdx_val_of_single rfl i k
theorem ev_rhs_1 (i : S64x64.Idx) (k : dot_S64x4096_S4096x64_S64x64_1_0_0_1_n_n.contr.Idx) :
    (dot_S64x4096_S4096x64_S64x64_1_0_0_1_n_n.rhsIdx i k 1).val = (i 1).val := by
  unfold DotDims.rhsIdx
  rw [dif_neg (show ¬(1 : Fin S4096x64.rank) ∈ dot_S64x4096_S4096x64_S64x64_1_0_0_1_n_n.rhsBatch by decide), dif_pos (show (1 : Fin S4096x64.rank) ∈ dot_S64x4096_S4096x64_S64x64_1_0_0_1_n_n.rhsNonContracting by decide)]
  rfl
theorem ev_rhs_0 (i : S64x64.Idx) (k : dot_S64x4096_S4096x64_S64x64_1_0_0_1_n_n.contr.Idx) :
    (dot_S64x4096_S4096x64_S64x64_1_0_0_1_n_n.rhsIdx i k 0).val = (k ⟨0, by decide⟩).val :=
  dot_S64x4096_S4096x64_S64x64_1_0_0_1_n_n.rhsIdx_val_of_single rfl i k

/-- Tile weights against value rows: `[64, 4096]` by `[4096, 64]`, contracted over the tile's slots, into a zero accumulator, read at an index: the sum over the contracted coordinate of the products. -/
theorem ev_apply (prec : Option ContractPrecision) (A : FVec Ideal S64x4096 .f32) (B : FVec Ideal S4096x64 .f32) (p d : Fin 64) :
    matmul (F := Ideal) dot_S64x4096_S4096x64_S64x64_1_0_0_1_n_n prec A B (constant (F := Ideal) S64x64 .f32 0x00000000#32) (ix2 p d)
      = ∑ k : Fin 4096, A (ix2 p k) * B (ix2 k d) := by
  refine (Ideal.matmul_constant_zero_apply dot_S64x4096_S4096x64_S64x64_1_0_0_1_n_n prec A B (ix2 p d)).trans ?_
  rw [← Equiv.sum_comp (contrEquiv1 dot_S64x4096_S4096x64_S64x64_1_0_0_1_n_n 4096 rfl rfl).symm]
  refine Finset.sum_congr rfl fun k _ => ?_
  have hk := contrEquiv1_symm_val dot_S64x4096_S4096x64_S64x64_1_0_0_1_n_n 4096 rfl rfl k
  have el : dot_S64x4096_S4096x64_S64x64_1_0_0_1_n_n.lhsIdx (ix2 p d) ((contrEquiv1 dot_S64x4096_S4096x64_S64x64_1_0_0_1_n_n 4096 rfl rfl).symm k) = ix2 p k := funext fun ax => Fin.ext (by
    match ax with
    | ⟨0, _⟩ => exact ev_lhs_0 _ _
    | ⟨1, _⟩ => exact (ev_lhs_1 _ _).trans hk)
  have er : dot_S64x4096_S4096x64_S64x64_1_0_0_1_n_n.rhsIdx (ix2 p d) ((contrEquiv1 dot_S64x4096_S4096x64_S64x64_1_0_0_1_n_n 4096 rfl rfl).symm k) = ix2 k d := funext fun ax => Fin.ext (by
    match ax with
    | ⟨0, _⟩ => exact (ev_rhs_0 _ _).trans hk
    | ⟨1, _⟩ => exact ev_rhs_1 _ _)
  rw [el, er]

/-! ## The payloads at an index -/

/-- One tile's exponential at row `p` of the query block and row `q` of the key tile. -/
def exAt (x0 : Vec Ideal S64x64 .f32) (x1 : Vec Ideal S4096x64 .f32) (p : Fin 64) (q : Fin 4096) : EReal :=
  Ideal.exp ((∑ d : Fin 64, x0 (ix2 p d) * x1 (ix2 q d))
    * Ideal.div Cert.Spec.ten (max (Ideal.sqrt (∑ d : Fin 64, x0 (ix2 p d) * x0 (ix2 p d)) * Ideal.sqrt (∑ d : Fin 64, x1 (ix2 q d) * x1 (ix2 q d))) Cert.Spec.eps))

/-- The word 0x3F800000 denotes 1. -/
theorem ofBits_one : Ideal.ofBits .f32 0x3F800000#32 = (1 : EReal) := IdealRules.sign_bit.ideal_onePat .f32

theorem pay7_apply (x0 : Vec Ideal S64x64 .f32) (x1 : Vec Ideal S4096x64 .f32) (p : Fin 64) (q : Fin 4096) :
    k0_pay7 (F := Ideal) x0 x1 (ix2 p q) = exAt x0 x1 p q := by
  -- the inner product of query row p with key row q
  have e13 : matmul (F := Ideal) dot_S64x64_S4096x64_S64x4096_1_1_0_0_n_n none x0 x1 (constant (F := Ideal) S64x4096 .f32 0x00000000#32) (ix2 p q) = ∑ d : Fin 64, x0 (ix2 p d) * x1 (ix2 q d) :=
    qk_apply none x0 x1 p q
  -- the query row's norm: the lane sum of its squares, set as a column, rooted, repeated along the tile
  have e22 : broadcastTo S64x4096 (sqrt (shapeCast S64x1 (multiReduction (F := Ideal) .add [1] S64 (mulf (φ := .f32) x0 x0) 0x00000000#32 reduces_S64x64_S64 (.inl rfl) rfl) shapeCasts_S64_S64x1)) broadcasts_S64x1_S64x4096 (ix2 p q)
      = Ideal.sqrt (∑ d : Fin 64, x0 (ix2 p d) * x0 (ix2 p d)) := by
    refine (broadcastTo_a1_ab_apply _ _ p q).trans ?_
    refine congrArg Ideal.sqrt ?_
    refine (shapeCast_a_a1_apply _ _ p 0).trans ?_
    exact laneSum_apply (mulf (φ := .f32) x0 x0) _ _ _ p
  -- the key row's norm: a row of ones against the squared key tile sums each key row's squares
  have e23 : broadcastTo S64x4096 (sqrt (matmul (F := Ideal) dot_S1x64_S4096x64_S1x4096_1_1_0_0_n_n (some .fp32) (broadcast S1x64 (Scalar.ofBits (F := Ideal) .f32 0x3F800000#32)) (mulf (φ := .f32) x1 x1) (constant (F := Ideal) S1x4096 .f32 0x00000000#32))) broadcasts_S1x4096_S64x4096 (ix2 p q)
      = Ideal.sqrt (∑ d : Fin 64, x1 (ix2 q d) * x1 (ix2 q d)) := by
    refine (broadcastTo_1b_ab_apply _ _ p q).trans ?_
    refine congrArg Ideal.sqrt ?_
    refine (ones_apply _ _ _ 0 q).trans ?_
    refine Finset.sum_congr rfl fun d _ => ?_
    show Ideal.ofBits .f32 0x3F800000#32 * (x1 (ix2 q d) * x1 (ix2 q d)) = _
    rw [ofBits_one, one_mul]
  show Ideal.exp (matmul (F := Ideal) dot_S64x64_S4096x64_S64x4096_1_1_0_0_n_n none x0 x1 (constant (F := Ideal) S64x4096 .f32 0x00000000#32) (ix2 p q)
      * Ideal.div Cert.Spec.ten (max (broadcastTo S64x4096 (sqrt (shapeCast S64x1 (multiReduction (F := Ideal) .add [1] S64 (mulf (φ := .f32) x0 x0) 0x00000000#32 reduces_S64x64_S64 (.inl rfl) rfl) shapeCasts_S64_S64x1)) broadcasts_S64x1_S64x4096 (ix2 p q)
          * broadcastTo S64x4096 (sqrt (matmul (F := Ideal) dot_S1x64_S4096x64_S1x4096_1_1_0_0_n_n (some .fp32) (broadcast S1x64 (Scalar.ofBits (F := Ideal) .f32 0x3F800000#32)) (mulf (φ := .f32) x1 x1) (constant (F := Ideal) S1x4096 .f32 0x00000000#32))) broadcasts_S1x4096_S64x4096 (ix2 p q)) Cert.Spec.eps)) = _
  rw [e13, e22, e23]
  rfl

theorem pay8_apply (x0 : Vec Ideal S64x64 .f32) (x1 : Vec Ideal S4096x64 .f32) (p : Fin 64) (q : Fin 4096) :
    k0_pay8 (F := Ideal) x0 x1 (ix3 (0 : Fin 1) p q) = exAt x0 x1 p q :=
  -- the tile's exponentials under one more leading unit axis
  (shapeCast_ab_1ab_apply (k0_pay7 (F := Ideal) x0 x1) shapeCasts_S64x4096_S1x64x4096 0 p q).trans (pay7_apply x0 x1 p q)

theorem pay1_apply (p : Fin 64) : k0_pay1 (F := Ideal) (ix2 p (0 : Fin 1)) = 0 :=
  -- a zero splat, cast to its own shape
  (congrFun (shapeCast_self (broadcast S64x1 (Scalar.ofBits (F := Ideal) .f32 0x00000000#32)) shapeCasts_S64x1_S64x1)
    (ix2 p (0 : Fin 1))).trans Ideal.ofBits_zero_f32

theorem pay2_apply (p d : Fin 64) : k0_pay2 (F := Ideal) (ix2 p d) = 0 :=
  (congrFun (shapeCast_self (broadcast S64x64 (Scalar.ofBits (F := Ideal) .f32 0x00000000#32)) shapeCasts_S64x64_S64x64)
    (ix2 p d)).trans Ideal.ofBits_zero_f32

theorem pay9_apply (x0 : Vec Ideal S64x64 .f32) (x1 : Vec Ideal S4096x64 .f32) (s : Vec Ideal S64x1 .f32) (p : Fin 64) :
    k0_pay9 (F := Ideal) x0 x1 s (ix2 p (0 : Fin 1)) = s (ix2 p (0 : Fin 1)) + ∑ q : Fin 4096, exAt x0 x1 p q := by
  -- the lane sum of the tile's exponentials along row p, set as a column
  have e37 : shapeCast S64x1 (multiReduction (F := Ideal) .add [1] S64 (k0_pay7 (F := Ideal) x0 x1) 0x00000000#32 reduces_S64x4096_S64 (.inl rfl) rfl) shapeCasts_S64_S64x1 (ix2 p (0 : Fin 1))
      = ∑ q : Fin 4096, exAt x0 x1 p q := by
    refine (shapeCast_a_a1_apply _ _ p 0).trans ?_
    refine (laneSum_apply (k0_pay7 (F := Ideal) x0 x1) _ _ _ p).trans ?_
    exact Finset.sum_congr rfl fun q _ => pay7_apply x0 x1 p q
  -- the running sum plus that column, cast to its own shape
  refine (congrFun (shapeCast_self (addf (φ := .f32) s (shapeCast S64x1 (multiReduction (F := Ideal) .add [1] S64 (k0_pay7 (F := Ideal) x0 x1) 0x00000000#32 reduces_S64x4096_S64 (.inl rfl) rfl) shapeCasts_S64_S64x1)) shapeCasts_S64x1_S64x1) (ix2 p (0 : Fin 1))).trans ?_
  exact congrArg (s (ix2 p (0 : Fin 1)) + ·) e37

theorem pay10_apply (x0 : Vec Ideal S64x64 .f32) (x1 : Vec Ideal S4096x64 .f32) (a : Vec Ideal S64x64 .f32) (x2 : Vec Ideal S4096x64 .f32) (p d : Fin 64) :
    k0_pay3 (F := Ideal) (k0_pay10 (F := Ideal) x0 x1 a x2) (ix2 p d) = a (ix2 p d) + ∑ q : Fin 4096, exAt x0 x1 p q * x2 (ix2 q d) := by
  -- the tile's exponentials against the value tile, contracted over the tile's slots
  have e44 : matmul (F := Ideal) dot_S64x4096_S4096x64_S64x64_1_0_0_1_n_n none (k0_pay7 (F := Ideal) x0 x1) x2 (constant (F := Ideal) S64x64 .f32 0x00000000#32) (ix2 p d)
      = ∑ q : Fin 4096, exAt x0 x1 p q * x2 (ix2 q d) :=
    (ev_apply none (k0_pay7 (F := Ideal) x0 x1) x2 p d).trans
      (Finset.sum_congr rfl fun q _ => congrArg (· * x2 (ix2 q d)) (pay7_apply x0 x1 p q))
  -- the running values plus that product, cast to its own shape
  refine (congrFun (shapeCast_self (k0_pay10 (F := Ideal) x0 x1 a x2) shapeCasts_S64x64_S64x64) (ix2 p d)).trans ?_
  exact congrArg (a (ix2 p d) + ·) e44

/-- The reciprocal column: one over each running sum. -/
theorem pay4_apply (s : Vec Ideal S64x1 .f32) (p : Fin 64) :
    k0_pay4 (F := Ideal) s (ix2 p (0 : Fin 1)) = Ideal.div 1 (s (ix2 p (0 : Fin 1))) := by
  show Ideal.div (Ideal.ofBits .f32 0x3F800000#32) (s (ix2 p (0 : Fin 1))) = _
  rw [ofBits_one]

theorem pay5_apply (s : Vec Ideal S64x1 .f32) (slab : Vec Ideal S1x64x4096 .f32) (p : Fin 64) (q : Fin 4096) :
    k0_pay5 (F := Ideal) s slab (ix2 p q) = slab (ix3 (0 : Fin 1) p q) * Ideal.div 1 (s (ix2 p (0 : Fin 1))) := by
  have e16 : shapeCast S64x4096 slab shapeCasts_S1x64x4096_S64x4096 (ix2 p q) = slab (ix3 (0 : Fin 1) p q) :=
    shapeCast_1ab_ab_apply slab shapeCasts_S1x64x4096_S64x4096 p q
  have e17 : broadcastTo S64x4096 (k0_pay4 (F := Ideal) s) broadcasts_S64x1_S64x4096 (ix2 p q) = Ideal.div 1 (s (ix2 p (0 : Fin 1))) :=
    (broadcastTo_a1_ab_apply _ _ p q).trans (pay4_apply s p)
  show shapeCast S64x4096 slab shapeCasts_S1x64x4096_S64x4096 (ix2 p q) * broadcastTo S64x4096 (k0_pay4 (F := Ideal) s) broadcasts_S64x1_S64x4096 (ix2 p q) = _
  rw [e16, e17]

theorem pay6_apply (s : Vec Ideal S64x1 .f32) (a : Vec Ideal S64x64 .f32) (p d : Fin 64) :
    k0_pay6 (F := Ideal) s a (ix2 p d) = a (ix2 p d) * Ideal.div 1 (s (ix2 p (0 : Fin 1))) := by
  have e21 : broadcastTo S64x64 (k0_pay4 (F := Ideal) s) broadcasts_S64x1_S64x64 (ix2 p d) = Ideal.div 1 (s (ix2 p (0 : Fin 1))) :=
    (broadcastTo_a1_ab_apply _ _ p d).trans (pay4_apply s p)
  show a (ix2 p d) * broadcastTo S64x64 (k0_pay4 (F := Ideal) s) broadcasts_S64x1_S64x64 (ix2 p d) = _
  rw [e21]

end Cert.KernelIdeal.PayloadAt

end
-- ==== Proof.KI.ValueAcc.lean ====
/-
  The carried contents in closed form, over the extended reals. Slice s of the exponentials' buffer is the
  exponentials of rows 4096·s … of the key table; after the first phase the running sums are each query row's total
  of exponentials over all 65536 slots and the running values their weighted sum of value rows (sixteen tiles of 4096
  rows regrouped into one sum; sums of extended reals regroup freely).
-/
import proofs.«109230_g9234179687032_cont_9to1c4b_825_2_alg».proof.Proof.KI.Blocks
import proofs.«109230_g9234179687032_cont_9to1c4b_825_2_alg».proof.Proof.KI.PayloadAt
import proofs.«109230_g9234179687032_cont_9to1c4b_825_2_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayloadAt

variable (m : (ℓ : Loc nD τ sig) → Buf (Elt Ideal) ℓ)

open scoped BigOperators

/-! ## The blocks are the arrays -/

/-- A tile's exponential over the blocks is the specification's over the arrays. -/
theorem exAt_blocks (c : Dev nD) (s : Fin 16) (p : Fin 64) (j : Fin 4096) :
    exAt (qblk m c (tilePt s)) (kblk m c (tilePt s)) p j = Cert.Spec.ex (qArr m c) (kArr m c) p (rowOf s j) := by
  unfold exAt Cert.Spec.ex Cert.Spec.logit Cert.Spec.dotQK Cert.Spec.qNorm Cert.Spec.kNorm
  simp only [qblk_apply, kblk_apply]

/-- The same at a first-phase point given by its number. -/
theorem exAt_point (c : Dev nD) (n : ℕ) (hn : n < cfg0.N) (h : n < 16) (p : Fin 64) (j : Fin 4096) :
    exAt (qblk m c ⟨n, hn⟩) (kblk m c ⟨n, hn⟩) p j = Cert.Spec.ex (qArr m c) (kArr m c) p (rowOf ⟨n, h⟩ j) :=
  exAt_blocks m c ⟨n, h⟩ p j

/-- The value tile of a first-phase point given by its number. -/
theorem vblk_point (c : Dev nD) (n : ℕ) (hn : n < cfg0.N) (h : n < 16) (j : Fin 4096) (d : Fin 64) :
    vblk m c ⟨n, hn⟩ (ix2 j d) = vArr m c (ix2 (rowOf ⟨n, h⟩ j) d) :=
  vblk_apply m c ⟨n, h⟩ j d

theorem slab_apply (c : Dev nD) (s : Fin 16) (p : Fin 64) (j : Fin 4096) :
    slabAt (F := Ideal) m c s (ix3 (0 : Fin 1) p j) = Cert.Spec.ex (qArr m c) (kArr m c) p (rowOf s j) := by
  rw [slabAt, pay8_apply, exAt_blocks]

/-! ## Sixteen tiles regrouped -/

/-- Sixteen tiles of 4096 rows are the 65536 rows: the pair (tile, row in tile) is the row's number. -/
def tileEquiv : Fin 16 × Fin 4096 ≃ Fin 65536 :=
  (finProdFinEquiv (m := 16) (n := 4096)).trans (finCongr (by norm_num))

theorem tileEquiv_apply (s : Fin 16) (j : Fin 4096) : tileEquiv (s, j) = rowOf s j := by
  apply Fin.ext
  show j.val + 4096 * s.val = 4096 * s.val + j.val
  omega

/-- A sum over the 65536 rows, taken tile by tile. -/
theorem sum_tiles {α : Type*} [AddCommMonoid α] (g : Fin 65536 → α) :
    ∑ s : Fin 16, ∑ j : Fin 4096, g (rowOf s j) = ∑ mm : Fin 65536, g mm := by
  rw [← Equiv.sum_comp tileEquiv g, Fintype.sum_prod_type]
  exact Finset.sum_congr rfl fun s _ => Finset.sum_congr rfl fun j _ => by rw [tileEquiv_apply]

/-- Tile number `s`'s term of a sum over the tiles (zero past the last tile). -/
def tileTerm (G : Fin 16 → EReal) (s : ℕ) : EReal := if h : s < 16 then G ⟨s, h⟩ else 0

theorem tileTerm_lt (G : Fin 16 → EReal) (s : ℕ) (h : s < 16) : tileTerm G s = G ⟨s, h⟩ := dif_pos h

/-- The terms of all sixteen tiles sum to the sum over the tiles. -/
theorem sum_tileTerm (G : Fin 16 → EReal) : ∑ s ∈ Finset.range 16, tileTerm G s = ∑ s : Fin 16, G s := by
  rw [← Fin.sum_univ_eq_sum_range]
  exact Finset.sum_congr rfl fun s _ => tileTerm_lt G s.val s.isLt

/-! ## The running sums and values -/

/-- After first-phase point `n` the running sum of row `p` is the sum of the exponentials of tiles `0 … n`. -/
theorem sums_upto (c : Dev nD) (p : Fin 64) (n : ℕ) (hn : n < cfg0.N) (h : n < 16) :
    (accs (F := Ideal) m c n hn).1 (ix2 p (0 : Fin 1))
      = ∑ s ∈ Finset.range (n + 1),
          tileTerm (fun s => ∑ j : Fin 4096, Cert.Spec.ex (qArr m c) (kArr m c) p (rowOf s j)) s := by
  induction n with
  | zero =>
    have e : (accs (F := Ideal) m c 0 hn).1 = k0_pay9 (qblk m c ⟨0, hn⟩) (kblk m c ⟨0, hn⟩) (k0_pay1 (F := Ideal)) :=
      congrArg Prod.fst (accs_zero m c hn)
    rw [e, pay9_apply, pay1_apply, zero_add, Finset.sum_range_one, tileTerm_lt _ 0 h]
    exact Finset.sum_congr rfl fun j _ => exAt_point m c 0 hn h p j
  | succ n ih =>
    have hn' : n < cfg0.N := Nat.lt_of_succ_lt hn
    have e : (accs (F := Ideal) m c (n + 1) hn).1
        = k0_pay9 (qblk m c ⟨n + 1, hn⟩) (kblk m c ⟨n + 1, hn⟩) (accs m c n hn').1 :=
      congrArg Prod.fst (accs_succ_lt m c n hn h)
    have e' : ∑ q : Fin 4096, exAt (qblk m c ⟨n + 1, hn⟩) (kblk m c ⟨n + 1, hn⟩) p q
        = tileTerm (fun s => ∑ j : Fin 4096, Cert.Spec.ex (qArr m c) (kArr m c) p (rowOf s j)) (n + 1) := by
      rw [tileTerm_lt _ (n + 1) h]
      exact Finset.sum_congr rfl fun j _ => exAt_point m c (n + 1) hn h p j
    rw [e, pay9_apply, ih hn' (by omega), e', Finset.sum_range_succ _ (n + 1)]

/-- After first-phase point `n` the running value at `(p, d)` is the weighted sum of the value rows of tiles `0 … n`. -/
theorem vals_upto (c : Dev nD) (p d : Fin 64) (n : ℕ) (hn : n < cfg0.N) (h : n < 16) :
    (accs (F := Ideal) m c n hn).2 (ix2 p d)
      = ∑ s ∈ Finset.range (n + 1),
          tileTerm (fun s => ∑ j : Fin 4096,
            Cert.Spec.ex (qArr m c) (kArr m c) p (rowOf s j) * vArr m c (ix2 (rowOf s j) d)) s := by
  induction n with
  | zero =>
    have e : (accs (F := Ideal) m c 0 hn).2
        = k0_pay3 (k0_pay10 (qblk m c ⟨0, hn⟩) (kblk m c ⟨0, hn⟩) (k0_pay2 (F := Ideal)) (vblk m c ⟨0, hn⟩)) :=
      congrArg Prod.snd (accs_zero m c hn)
    rw [e, pay10_apply, pay2_apply, zero_add, Finset.sum_range_one, tileTerm_lt _ 0 h]
    exact Finset.sum_congr rfl fun j _ => by rw [exAt_point m c 0 hn h p j, vblk_point m c 0 hn h j d]
  | succ n ih =>
    have hn' : n < cfg0.N := Nat.lt_of_succ_lt hn
    have e : (accs (F := Ideal) m c (n + 1) hn).2
        = k0_pay3 (k0_pay10 (qblk m c ⟨n + 1, hn⟩) (kblk m c ⟨n + 1, hn⟩) (accs m c n hn').2 (vblk m c ⟨n + 1, hn⟩)) :=
      congrArg Prod.snd (accs_succ_lt m c n hn h)
    have e' : ∑ q : Fin 4096, exAt (qblk m c ⟨n + 1, hn⟩) (kblk m c ⟨n + 1, hn⟩) p q * vblk m c ⟨n + 1, hn⟩ (ix2 q d)
        = tileTerm (fun s => ∑ j : Fin 4096,
            Cert.Spec.ex (qArr m c) (kArr m c) p (rowOf s j) * vArr m c (ix2 (rowOf s j) d)) (n + 1) := by
      rw [tileTerm_lt _ (n + 1) h]
      exact Finset.sum_congr rfl fun j _ => by rw [exAt_point m c (n + 1) hn h p j, vblk_point m c (n + 1) hn h j d]
    rw [e, pay10_apply, ih hn' (by omega), e', Finset.sum_range_succ _ (n + 1)]

/-- From point 15 on the carried sums and values no longer change. -/
theorem accs_frozen (c : Dev nD) (k : ℕ) (hn : 15 + k < cfg0.N) (h15 : 15 < cfg0.N) :
    accs (F := Ideal) m c (15 + k) hn = accs m c 15 h15 := by
  induction k with
  | zero => rfl
  | succ k ih =>
    have hn' : 15 + k < cfg0.N := Nat.lt_of_succ_lt hn
    exact (accs_succ_ge m c (15 + k) hn (by omega)).trans (ih hn')

theorem sums_final (c : Dev nD) (n : ℕ) (hn : n < cfg0.N) (h15 : 15 ≤ n) (p : Fin 64) :
    (accs (F := Ideal) m c n hn).1 (ix2 p (0 : Fin 1)) = Cert.Spec.total (qArr m c) (kArr m c) p := by
  obtain ⟨k, rfl⟩ := Nat.exists_eq_add_of_le h15
  have h15' : 15 < cfg0.N := lt_of_lt_of_eq (by norm_num) N_eq.symm
  rw [accs_frozen m c k hn h15', sums_upto m c p 15 h15' (by norm_num)]
  show ∑ s ∈ Finset.range 16, tileTerm _ s = _
  rw [sum_tileTerm, sum_tiles, Cert.Spec.total]

theorem vals_final (c : Dev nD) (n : ℕ) (hn : n < cfg0.N) (h15 : 15 ≤ n) (p d : Fin 64) :
    (accs (F := Ideal) m c n hn).2 (ix2 p d)
      = ∑ mm : Fin 65536, Cert.Spec.ex (qArr m c) (kArr m c) p mm * vArr m c (ix2 mm d) := by
  obtain ⟨k, rfl⟩ := Nat.exists_eq_add_of_le h15
  have h15' : 15 < cfg0.N := lt_of_lt_of_eq (by norm_num) N_eq.symm
  rw [accs_frozen m c k hn h15', vals_upto m c p d 15 h15' (by norm_num)]
  show ∑ s ∈ Finset.range 16, tileTerm _ s = _
  rw [sum_tileTerm]
  exact sum_tiles (fun mm => Cert.Spec.ex (qArr m c) (kArr m c) p mm * vArr m c (ix2 mm d))

end Cert.KernelIdeal.Body

end
-- ==== Proof.KI.OutAt.lean ====
/-
  What a second-phase point leaves in the two output buffers, index by index: the weights' buffer holds the softmax
  weights of rows 4096·s … of the memory (s the point's slice), the retrieved values' buffer the retrieved values.
-/
import proofs.«109230_g9234179687032_cont_9to1c4b_825_2_alg».proof.Proof.KI.ValueAcc

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayloadAt

variable (m : (ℓ : Loc nD τ sig) → Buf (Elt Ideal) ℓ)

theorem outW_apply (c : Dev nD) (t : Fin cfg0.N) (h16 : 16 ≤ t.val) (p : Fin 64) (j : Fin 4096) :
    outW (F := Ideal) m c t (ix2 p j) = Cert.Spec.weights (qArr m c) (kArr m c) (ix2 p (rowOf (sliceOf t) j)) := by
  -- the point before a second-phase point is at or past the last first-phase point
  have h15 : 15 ≤ t.val - 1 := by omega
  unfold outW
  -- slice entry times one over the row's running sum; the slice is the tile's exponentials, the sum the row's total
  rw [pay5_apply, slab_apply, sums_final m c (t.val - 1) _ h15 p]
  rfl

theorem outP_apply (c : Dev nD) (t : Fin cfg0.N) (h16 : 16 ≤ t.val) (p d : Fin 64) :
    outP (F := Ideal) m c t (ix2 p d) = Cert.Spec.pred (qArr m c) (kArr m c) (vArr m c) (ix2 p d) := by
  have h15 : 15 ≤ t.val - 1 := by omega
  unfold outP
  -- running value times one over the row's running sum, both in closed form over all 65536 slots
  rw [pay6_apply, sums_final m c (t.val - 1) _ h15 p, vals_final m c (t.val - 1) _ h15 p d]
  rfl

end Cert.KernelIdeal.Body

end
-- ==== Proof.KI.Final.lean ====
/-
  From the blocks the kernel writes back to the two result arrays. The weights' window is written back at every point of
  the second phase, point 16 + s writing columns 4096·s … 4096·s + 4095 of all 64 rows: those sixteen blocks tile the
  64 × 65536 array, and each is its block of the softmax weights, so the array ends at the weights. The retrieved values'
  window is written back once, whole, at the last point, with the retrieved values.
-/
import proofs.«109230_g9234179687032_cont_9to1c4b_825_2_alg».proof.Proof.KI.Frame
import proofs.«109230_g9234179687032_cont_9to1c4b_825_2_alg».proof.Proof.KI.OutAt
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The weights' window's block index at a second-phase point `t` is (0, t - 16). -/
theorem win3_index : ∀ t : Fin cfg0.N, 16 ≤ t.val → win0_3.index t (0 : Fin 2) = 0 ∧ win0_3.index t (1 : Fin 2) = t.val % 16 :=
  (by decide +kernel : ∀ t : Fin grid0.N, 16 ≤ t.val → win0_3.index t (0 : Fin 2) = 0 ∧ win0_3.index t (1 : Fin 2) = t.val % 16)

/-- The retrieved values' window's block index is (0, 0) at every point. -/
theorem win4_index : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- What a second-phase point writes back to the weights' array is its block of the softmax weights. -/
theorem flushed3_eq (c : Dev nD) (t : Fin cfg0.N) (h16 : 16 ≤ t.val) :
    (dats (F := Ideal) m 0 c).flushed 3 t
      = ((cfg0.win 3).blk t).view.read (Elt Ideal) (Cert.Spec.weights (qArr m c) (kArr m c)) := by
  show (cfg0.win 3).cut (grid0.coords t) ((dats (F := Ideal) m 0 c).after 3 t) = _
  rw [after_3]
  obtain ⟨e0, e1⟩ := win3_index t h16
  funext y
  obtain ⟨p, j, rfl⟩ : ∃ (p : Fin 64) (j : Fin 4096), y = (ix2 p j : S64x4096.Idx) :=
    ⟨y 0, y 1, eq_ix2 (n0 := 64) (n1 := 4096) y⟩
  rw [View.read_apply]
  show outW (F := Ideal) m c t (ix2 p j)
    = Cert.Spec.weights (qArr m c) (kArr m c) (((cfg0.win 3).blk t).view.emb (ix2 p j))
  rw [outW_apply m c t h16 p j]
  congr 1
  funext a
  apply Fin.ext
  match a with
  | ⟨0, _⟩ => show p.val = win0_3.index t (0 : Fin 2) * 64 + 1 * p.val; rw [e0]; omega
  | ⟨1, _⟩ => show 4096 * (t.val % 16) + j.val = win0_3.index t (1 : Fin 2) * 4096 + 1 * j.val; rw [e1]; omega

/-- An index of the weights' array is in point `t`'s block iff each coordinate is in the block's range on its axis. -/
theorem mem_blk3 (t : Fin cfg0.N) (i : S64x65536.Idx) :
    i ∈ ((cfg0.win 3).blk t).view.set ↔ ∀ a : Fin 2, win0_3.index t a * S64x4096.size a ≤ (i a).val
      ∧ (i a).val < win0_3.index t a * S64x4096.size a + S64x4096.size a := by
  show i ∈ ((View.whole main_v0_1).slice (win0_3.rect t)).set ↔ _
  rw [View.set_slice_whole, Rect.mem_set_unit]
  exact Iff.rfl

/-- The sixteen blocks written back in the second phase tile the weights' array: column `q` is in the block of
    point `16 + q / 4096`. -/
theorem cover3 (i : S64x65536.Idx) :
    ∃ t : Fin cfg0.N, (cfg0.win 3).flush t = true ∧ i ∈ ((cfg0.win 3).blk t).view.set := by
  have hi0 : (i 0).val < 64 := (i 0).isLt
  have hi1 : (i 1).val < 65536 := (i 1).isLt
  obtain ⟨t, ht⟩ : ∃ t : Fin cfg0.N, t.val = 16 + (i 1).val / 4096 :=
    ⟨⟨16 + (i 1).val / 4096, by rw [N_eq]; omega⟩, rfl⟩
  have ht16 : 16 ≤ t.val := by omega
  obtain ⟨e0, e1⟩ := win3_index t ht16
  refine ⟨t, ?_, ?_⟩
  · rw [flush_3]; exact decide_eq_true ht16
  · rw [mem_blk3]
    intro a
    match a with
    | ⟨0, _⟩ =>
      show win0_3.index t (0 : Fin 2) * 64 ≤ (i 0).val ∧ (i 0).val < win0_3.index t (0 : Fin 2) * 64 + 64
      rw [e0]; omega
    | ⟨1, _⟩ =>
      show win0_3.index t (1 : Fin 2) * 4096 ≤ (i 1).val ∧ (i 1).val < win0_3.index t (1 : Fin 2) * 4096 + 4096
      rw [e1]; omega

/-- The weights' array after the run. -/
theorem final_weights (c : Dev nD) : (dats (F := Ideal) m 0 c).arrAt 3 cfg0.N = Cert.Spec.weights (qArr m c) (kArr m c) :=
  (dats (F := Ideal) m 0 c).arrAt_eq_of_cover 3 (Cert.Spec.weights (qArr m c) (kArr m c))
    (fun t hf => flushed3_eq m c t (by rw [flush_3] at hf; exact of_decide_eq_true hf)) cover3

/-- What the last point writes back to the retrieved values' array is the whole of the retrieved values. -/
theorem flushed4_eq (c : Dev nD) (t : Fin cfg0.N) (h16 : 16 ≤ t.val) :
    (dats (F := Ideal) m 0 c).flushed 4 t
      = ((cfg0.win 4).blk t).view.read (Elt Ideal) (Cert.Spec.pred (qArr m c) (kArr m c) (vArr m c)) := by
  show (cfg0.win 4).cut (grid0.coords t) ((dats (F := Ideal) m 0 c).after 4 t) = _
  rw [after_4]
  obtain ⟨e0, e1⟩ := win4_index t
  funext y
  obtain ⟨p, d, rfl⟩ : ∃ (p : Fin 64) (d : Fin 64), y = (ix2 p d : S64x64.Idx) :=
    ⟨y 0, y 1, eq_ix2 (n0 := 64) (n1 := 64) y⟩
  rw [View.read_apply]
  show outP (F := Ideal) m c t (ix2 p d)
    = Cert.Spec.pred (qArr m c) (kArr m c) (vArr m c) (((cfg0.win 4).blk t).view.emb (ix2 p d))
  rw [outP_apply m c t h16 p d]
  congr 1
  funext a
  apply Fin.ext
  match a with
  | ⟨0, _⟩ => show p.val = win0_4.index t (0 : Fin 2) * 64 + 1 * p.val; rw [e0]; omega
  | ⟨1, _⟩ => show d.val = win0_4.index t (1 : Fin 2) * 64 + 1 * d.val; rw [e1]; omega

/-- An index of the retrieved values' array is in point `t`'s block iff each coordinate is in the block's range. -/
theorem mem_blk4 (t : Fin cfg0.N) (i : S64x64.Idx) :
    i ∈ ((cfg0.win 4).blk t).view.set ↔ ∀ a : Fin 2, win0_4.index t a * S64x64.size a ≤ (i a).val
      ∧ (i a).val < win0_4.index t a * S64x64.size a + S64x64.size a := by
  show i ∈ ((View.whole main_v0_0).slice (win0_4.rect t)).set ↔ _
  rw [View.set_slice_whole, Rect.mem_set_unit]
  exact Iff.rfl

/-- The one block written back at the last point is the whole of the retrieved values' array. -/
theorem cover4 (i : S64x64.Idx) :
    ∃ t : Fin cfg0.N, (cfg0.win 4).flush t = true ∧ i ∈ ((cfg0.win 4).blk t).view.set := by
  have hi0 : (i 0).val < 64 := (i 0).isLt
  have hi1 : (i 1).val < 64 := (i 1).isLt
  obtain ⟨t, ht⟩ : ∃ t : Fin cfg0.N, t.val = 31 := ⟨⟨31, by rw [N_eq]; omega⟩, rfl⟩
  obtain ⟨e0, e1⟩ := win4_index t
  refine ⟨t, ?_, ?_⟩
  · rw [flush_4]; exact decide_eq_true ht
  · rw [mem_blk4]
    intro a
    match a with
    | ⟨0, _⟩ =>
      show win0_4.index t (0 : Fin 2) * 64 ≤ (i 0).val ∧ (i 0).val < win0_4.index t (0 : Fin 2) * 64 + 64
      rw [e0]; omega
    | ⟨1, _⟩ =>
      show win0_4.index t (1 : Fin 2) * 64 ≤ (i 1).val ∧ (i 1).val < win0_4.index t (1 : Fin 2) * 64 + 64
      rw [e1]; omega

/-- The retrieved values' array after the run. -/
theorem final_pred (c : Dev nD) : (dats (F := Ideal) m 0 c).arrAt 4 cfg0.N = Cert.Spec.pred (qArr m c) (kArr m c) (vArr m c) :=
  (dats (F := Ideal) m 0 c).arrAt_eq_of_cover 4 (Cert.Spec.pred (qArr m c) (kArr m c) (vArr m c))
    (fun t hf => flushed4_eq m c t (by rw [flush_4] at hf; have := of_decide_eq_true hf; omega)) cover4

/-- Every weakly fair execution of the idealized kernel terminates with the two results at the Spec's functions of
    the argument arrays, the arguments unchanged. -/
theorem run_value : θ_run defs (onTc (τ := τ) (main (F := Ideal))) ⟨m, fun _ => 0, ρ⟩ (fun r => ∀ c : Dev nD,
      r.2.mem ((c.tc : Thread nD τ).loc main_v0_0) = Cert.Spec.pred (m ((c.tc : Thread nD τ).loc main_arg0)) (m ((c.tc : Thread nD τ).loc main_arg1)) (m ((c.tc : Thread nD τ).loc main_arg2))
      ∧ r.2.mem ((c.tc : Thread nD τ).loc main_v0_1) = Cert.Spec.weights (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 4).trans (final_pred m c),
      ((h c).1 3).trans (final_weights m c),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c)))⟩)
    (run_main (F := Ideal) m ρ)

end Cert.KernelIdeal.Body

end
-- ==== Proof.SoftmaxLaw.lean ====
/-
  The law that joins the two arrangements of the softmax. For finite arguments every logit is a real number, so
  for any real row shift M:  exp (l - M) / (0 + Σ_j exp (l_j - M)) = exp l · (1 / Σ_j exp l_j),  and the weighted
  sum of value rows factors the same way.
-/
import proofs.«109230_g9234179687032_cont_9to1c4b_825_2_alg».proof.Proof.Spec

noncomputable section

open scoped BigOperators

namespace Cert.Spec

open Idealize.ShloMosaic Idealize.ShloMosaic.ValueIdx

variable (x : SQ.Idx → EReal) (K V : SM.Idx → EReal)

/-! ## Real numbers inside the extended reals -/

/-- A finite sum of real numbers, read in the extended reals, is the real sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The temperature is the real number ten. -/
theorem ten_eq : ten = ((10 : ℝ) : EReal) := by
  simp [ten, Ideal.ofBits, Ideal.ieee, -EReal.coe_mul]; norm_num

/-- The floor under the norms is a positive real number. -/
theorem eps_pos_real : ∃ e : ℝ, 0 < e ∧ eps = (e : EReal) := by
  simp [eps, Ideal.ofBits, Ideal.ieee, -EReal.coe_mul]

/-- The inner product of two finite rows is the real inner product. -/
theorem dot_real {ι : Type*} [Fintype ι] (u v : ι → EReal) (ur vr : ι → ℝ)
    (hu : ∀ d, u d = (ur d : EReal)) (hv : ∀ d, v d = (vr d : EReal)) :
    ∑ d, u d * v d = ((∑ d, ur d * vr d : ℝ) : EReal) := by
  rw [← sum_coe]
  refine Finset.sum_congr rfl (fun d _ => ?_)
  rw [hu, hv, EReal.coe_mul]

/-- The Euclidean norm of a finite row is the real norm: a sum of squares is not negative. -/
theorem norm_real {ι : Type*} [Fintype ι] (u : ι → EReal) (ur : ι → ℝ) (hu : ∀ d, u d = (ur d : EReal)) :
    Ideal.sqrt (∑ d, u d * u d) = ((Real.sqrt (∑ d, ur d * ur d) : ℝ) : EReal) := by
  rw [dot_real u u ur ur hu hu, Ideal.sqrt_coe, if_neg]
  exact not_lt.mpr (Finset.sum_nonneg (fun d _ => mul_self_nonneg _))

/-- The floored product of two real norms is a positive real number. -/
theorem denom_real (a b : ℝ) : ∃ d : ℝ, 0 < d ∧ max ((a : EReal) * (b : EReal)) eps = (d : EReal) := by
  obtain ⟨e, he, hE⟩ := eps_pos_real
  refine ⟨max (a * b) e, lt_max_of_lt_right he, ?_⟩
  rw [hE, ← EReal.coe_mul]
  exact (EReal.coe_strictMono.monotone.map_max).symm

/-- With finite queries and keys a logit's numerator is a real number and its denominator a positive one. -/
theorem logit_parts (hx : IsReal x) (hK : IsReal K) (b : Fin 64) (m : Fin 65536) :
    ∃ n d : ℝ, 0 < d ∧ dotQK x K b m = (n : EReal) ∧ max (qNorm x b * kNorm K m) eps = (d : EReal) := by
  choose xr hxr using hx
  choose Kr hKr using hK
  obtain ⟨d, hd, hD⟩ := denom_real (Real.sqrt (∑ d, xr (ix2 b d) * xr (ix2 b d)))
    (Real.sqrt (∑ d, Kr (ix2 m d) * Kr (ix2 m d)))
  refine ⟨∑ d, xr (ix2 b d) * Kr (ix2 m d), d, hd, ?_, ?_⟩
  · exact dot_real _ _ _ _ (fun d => hxr (ix2 b d)) (fun d => hKr (ix2 m d))
  · rw [qNorm, kNorm, norm_real _ _ (fun d => hxr (ix2 b d)), norm_real _ _ (fun d => hKr (ix2 m d))]
    exact hD

/-- With finite queries and keys the reference's logit is a real number. -/
theorem rlogit_real (hx : IsReal x) (hK : IsReal K) (b : Fin 64) (m : Fin 65536) : ∃ r : ℝ, rlogit x K b m = (r : EReal) := by
  obtain ⟨n, d, hd, hn, hD⟩ := logit_parts x K hx hK b m
  refine ⟨n * (1 / d) * 10, ?_⟩
  rw [rlogit, hn, hD, Ideal.div_coe hd.ne', ten_eq, EReal.coe_mul, EReal.coe_mul]

/-- The two arrangements of the logit agree on finite arguments. -/
theorem rlogit_eq_logit (hx : IsReal x) (hK : IsReal K) (b : Fin 64) (m : Fin 65536) : rlogit x K b m = logit x K b m := by
  obtain ⟨n, d, hd, hn, hD⟩ := logit_parts x K hx hK b m
  rw [rlogit, logit, hn, hD, Ideal.div_coe hd.ne', Ideal.div_coe hd.ne', ten_eq, mul_assoc,
    mul_comm (((1 / d : ℝ)) : EReal)]

/-! ## The shift cancels -/

/-- In the real numbers: a common shift of the exponents cancels between an exponential and the row's sum. -/
theorem real_softmax_shift {ι : Type*} [Fintype ι] [Nonempty ι] (l : ι → ℝ) (μ : ℝ) (k : ι) :
    Real.exp (l k - μ) * (1 / ∑ m, Real.exp (l m - μ)) = Real.exp (l k) * (1 / ∑ m, Real.exp (l m)) := by
  have hS : 0 < ∑ m, Real.exp (l m) := Finset.sum_pos (fun m _ => Real.exp_pos _) Finset.univ_nonempty
  have hμ : 0 < Real.exp (-μ) := Real.exp_pos _
  have hsum : ∑ m, Real.exp (l m - μ) = (∑ m, Real.exp (l m)) * Real.exp (-μ) := by
    rw [Finset.sum_mul]
    refine Finset.sum_congr rfl (fun m _ => ?_)
    rw [sub_eq_add_neg, Real.exp_add]
  rw [hsum, sub_eq_add_neg, Real.exp_add]
  field_simp

/-- The same over the extended reals, for a row of real logits and a real shift. -/
theorem softmax_shift {ι : Type*} [Fintype ι] [Nonempty ι] (L : ι → EReal) (l : ι → ℝ)
    (hL : ∀ m, L m = (l m : EReal)) (μ : ℝ) (k : ι) :
    Ideal.div (Ideal.exp (L k - (μ : EReal))) (0 + ∑ m, Ideal.exp (L m - (μ : EReal)))
      = Ideal.exp (L k) * Ideal.div 1 (∑ m, Ideal.exp (L m)) := by
  have hS : 0 < ∑ m, Real.exp (l m) := Finset.sum_pos (fun m _ => Real.exp_pos _) Finset.univ_nonempty
  have hS' : 0 < ∑ m, Real.exp (l m - μ) := Finset.sum_pos (fun m _ => Real.exp_pos _) Finset.univ_nonempty
  have e1 : ∀ m, Ideal.exp (L m - (μ : EReal)) = ((Real.exp (l m - μ) : ℝ) : EReal) := fun m => by
    rw [hL, ← EReal.coe_sub, Ideal.exp_coe]
  have e2 : ∀ m, Ideal.exp (L m) = ((Real.exp (l m) : ℝ) : EReal) := fun m => by
    rw [hL, Ideal.exp_coe]
  simp only [e1, e2]
  rw [sum_coe, sum_coe, zero_add, Ideal.div_coe hS'.ne', Ideal.div_coe hS.ne', one_mul, ← EReal.coe_mul,
    ← EReal.coe_mul, real_softmax_shift]

/-- One entry of the weights: the reference's quotient is the kernel's product. -/
theorem weights_entry (hx : IsReal x) (hK : IsReal K) (M : Fin 64 → EReal) (hM : ∀ b, ∃ r : ℝ, M b = (r : EReal))
    (b : Fin 64) (m : Fin 65536) :
    Ideal.div (rex x K M b m) (rtotal x K M b) = ex x K b m * Ideal.div 1 (total x K b) := by
  obtain ⟨μ, hμ⟩ := hM b
  choose l hl using fun m' => rlogit_real x K hx hK b m'
  have h := softmax_shift (rlogit x K b) l hl μ m
  simp only [rtotal, rex, total, ex, ← rlogit_eq_logit x K hx hK, hμ]
  exact h

/-- The reference's weights, over any real row shift, are the kernel's. -/
theorem rweights_eq (hx : IsReal x) (hK : IsReal K) (M : Fin 64 → EReal) (hM : ∀ b, ∃ r : ℝ, M b = (r : EReal)) :
    rweights x K M = weights x K := by
  funext i
  exact weights_entry x K hx hK M hM (i 0) (i 1)

/-- One entry of the retrieved values: the weighted sum of a value column factors through the row's sum. -/
theorem pred_entry (hx : IsReal x) (hK : IsReal K) (hV : IsReal V) (M : Fin 64 → EReal)
    (hM : ∀ b, ∃ r : ℝ, M b = (r : EReal)) (b : Fin 64) (d : Fin 64) :
    ∑ m, Ideal.div (rex x K M b m) (rtotal x K M b) * V (ix2 m d)
      = (∑ m, ex x K b m * V (ix2 m d)) * Ideal.div 1 (total x K b) := by
  choose l hl using fun m' => rlogit_real x K hx hK b m'
  choose Vr hVr using hV
  have hS : 0 < ∑ m, Real.exp (l m) := Finset.sum_pos (fun m _ => Real.exp_pos _) Finset.univ_nonempty
  have e2 : ∀ m, ex x K b m = ((Real.exp (l m) : ℝ) : EReal) := fun m => by
    rw [ex, ← rlogit_eq_logit x K hx hK, hl, Ideal.exp_coe]
  have hT : total x K b = ((∑ m, Real.exp (l m) : ℝ) : EReal) := by
    rw [total]; simp only [e2]; rw [sum_coe]
  have hw : ∀ m, Ideal.div (rex x K M b m) (rtotal x K M b)
      = ((Real.exp (l m) * (1 / ∑ m, Real.exp (l m)) : ℝ) : EReal) := by
    intro m
    rw [weights_entry x K hx hK M hM b m, e2, hT, Ideal.div_coe hS.ne', one_mul, EReal.coe_mul]
  have hreal : ∑ m, Real.exp (l m) * (1 / ∑ m, Real.exp (l m)) * Vr (ix2 m d)
      = (∑ m, Real.exp (l m) * Vr (ix2 m d)) * (1 / ∑ m, Real.exp (l m)) := by
    rw [Finset.sum_mul]
    exact Finset.sum_congr rfl (fun m _ => by ring)
  simp only [hw, e2, hVr, hT]
  rw [Ideal.div_coe hS.ne', one_mul]
  simp only [← EReal.coe_mul]
  rw [sum_coe, sum_coe, ← EReal.coe_mul, hreal]

/-- The reference's retrieved values, over any real row shift, are the kernel's. -/
theorem rpred_eq (hx : IsReal x) (hK : IsReal K) (hV : IsReal V) (M : Fin 64 → EReal) (hM : ∀ b, ∃ r : ℝ, M b = (r : EReal)) :
    rpred x K V M = pred x K V := by
  funext i
  exact pred_entry x K V hx hK hV M hM (i 0) (i 1)

end Cert.Spec

end
-- ==== Proof.RefRead.lean ====
/-
  The reference's two results read index by index: they are the reference arrangement of the Spec module
  (`rweights`, `rpred`) at the row shift the reference computes, the maximum of each row of logits, which is a real
  number when the arguments are finite.
-/
import proofs.«109230_g9234179687032_cont_9to1c4b_825_2_alg».proof.Proof.Gen.ReferenceIdeal.Read
import proofs.«109230_g9234179687032_cont_9to1c4b_825_2_alg».proof.Proof.Spec
import proofs.«109230_g9234179687032_cont_9to1c4b_825_2_alg».proof.Proof.SoftmaxLaw

noncomputable section

open scoped BigOperators

namespace Cert.RefRead

open Cert.ReferenceIdeal Cert.ReferenceIdeal.Gen Idealize.ShloMosaic Idealize.ShloMosaic.ValueIdx Cert.Spec

section Stages

open Cert.ReferenceIdeal.Read

/-- The reference's logits, read at an index, are the logits of the reference arrangement. -/
theorem v13_apply (x : FVec Ideal S64x64 .f32) (K : FVec Ideal S65536x64 .f32) (b : Fin 64) (m : Fin 65536) :
    val_main_v13 (F := Ideal) x K (ix2 b m) = rlogit x K b m := by
  have e1 : ∀ k : Fin 64, lidx_main_v1 (ix2 b m) k = ix2 b k := fun k =>
    funext fun a => Fin.ext (by match a with | ⟨0, _⟩ => rfl | ⟨1, _⟩ => rfl)
  have e2 : ∀ k : Fin 64, idx_main_v0 (ridx_main_v1 (ix2 b m) k) = ix2 m k := fun k =>
    funext fun a => Fin.ext (by match a with | ⟨0, _⟩ => rfl | ⟨1, _⟩ => rfl)
  have e3 : ∀ k : Fin 64, idx_main_call0_v1 (idx_main_v4 (idx_main_v6 (ix2 b m))) k = ix2 b k := fun k =>
    funext fun a => Fin.ext (by match a with | ⟨0, _⟩ => rfl | ⟨1, _⟩ => rfl)
  have e4 : ∀ k : Fin 64, idx_main_call1_v1 (idx_main_v5 (idx_main_v7 (ix2 b m))) k = ix2 m k := fun k =>
    funext fun a => Fin.ext (by match a with | ⟨0, _⟩ => rfl | ⟨1, _⟩ => rfl)
  rw [val_main_v13_apply, val_main_v11_apply, val_main_v1_apply, val_main_v10_apply, val_main_v8_apply,
    val_main_v6_apply, val_main_v4_apply, val_main_v2_apply, val_main_call0_v1_apply,
    val_main_v7_apply, val_main_v5_apply, val_main_v3_apply, val_main_call1_v1_apply,
    val_main_v9_apply, val_main_cst_apply, val_main_v12_apply, val_main_cst_0_apply,
    val_main_call0_cst_apply, val_main_call1_cst_apply]
  simp only [val_main_v0_apply, val_main_call0_v0_apply, val_main_call1_v0_apply, e1, e2, e3, e4,
    Ideal.mulf_def, Ideal.hostDivf_def, Ideal.maximumf_def, Ideal.hostUnary_sqrt_def, Ideal.ofBits_def,
    Ideal.ofBits_zero_f32, zero_add]
  rfl

/-- With finite queries and keys every one of the reference's logits is a real number. -/
theorem v13_real (x : FVec Ideal S64x64 .f32) (K : FVec Ideal S65536x64 .f32) (hx : IsReal x) (hK : IsReal K)
    (i : S64x65536.Idx) : ∃ r : ℝ, val_main_v13 (F := Ideal) x K i = (r : EReal) := by
  obtain ⟨b, m, rfl⟩ : ∃ (b : Fin 64) (m : Fin 65536), i = ix2 b m := ⟨i 0, i 1, eq_ix2 i⟩
  rw [v13_apply]
  exact rlogit_real x K hx hK b m

/-- A fold of `max` from `⊥` over a nonempty finite family of real numbers is a real number. -/
theorem fold_max_real {ι : Type} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a =>
    obtain ⟨r, hr⟩ := hf a
    exact ⟨r, by rw [Finset.fold_singleton, hr, max_bot_right]⟩
  | cons a s ha hs ih =>
    obtain ⟨r, hr⟩ := hf a
    obtain ⟨q, hq⟩ := ih
    rw [Finset.fold_cons, hr, hq]
    rcases max_choice (r : EReal) (q : EReal) with h | h
    · exact ⟨r, h⟩
    · exact ⟨q, h⟩

/-- The row shift the reference computes (the maximum of a row of logits) is a real number. -/
theorem shift_real (x : FVec Ideal S64x64 .f32) (K : FVec Ideal S65536x64 .f32) (hx : IsReal x) (hK : IsReal K)
    (b : Fin 64) : ∃ r : ℝ, val_main_v16 (F := Ideal) x K (ix1 b) = (r : EReal) := by
  have hbot : Ideal.ofBits .f32 0xFF800000#32 = (⊥ : EReal) := by simp [Ideal.ofBits, Ideal.ieee]
  have hR : S64x65536.Reduces [1] S64 := by decide
  obtain ⟨r, hr⟩ := fold_max_real (Finset.univ : Finset (Fin (S64x65536.size 1))) ⟨⟨0, by decide⟩, Finset.mem_univ _⟩
    (val_main_v13 (F := Ideal) x K ∘ hR.lift (ix1 b)) (fun k => v13_real x K hx hK _)
  refine ⟨r, ?_⟩
  rw [val_main_v16_apply, val_main_v15_apply, val_main_cst_2_apply]
  unfold val_main_v14
  rw [Host.reduce_eq_fold_single FloatOps.maximumf _ _ reducesTo_S64x65536_S64_d1 hR h_S_, val_main_cst_1_apply]
  show max (Ideal.ofBits .f32 0xFF800000#32) (Finset.fold max (Ideal.ofBits .f32 0xFF800000#32) _ _) = _
  rw [hbot, hr, max_bot_left]

/-- The row shift the reference computes: the maximum of each row of logits (no smaller than `⊥`). -/
def shift (x : FVec Ideal S64x64 .f32) (K : FVec Ideal S65536x64 .f32) : Fin 64 → EReal :=
  fun b => val_main_v16 (F := Ideal) x K (ix1 b)

/-- The reference's exponentials, read at an index, are the shifted exponentials at its own shift. -/
theorem v20_apply (x : FVec Ideal S64x64 .f32) (K : FVec Ideal S65536x64 .f32) (b : Fin 64) (m : Fin 65536) :
    val_main_v20 (F := Ideal) x K (ix2 b m) = rex x K (shift x K) b m := by
  have e : idx_main_v17 (idx_main_v18 (ix2 b m)) = ix1 b :=
    funext fun a => Fin.ext (by match a with | ⟨0, _⟩ => rfl)
  rw [val_main_v20_apply, val_main_v19_apply, val_main_v18_apply, val_main_v17_apply, v13_apply, e,
    Ideal.hostUnary_exp_def, Ideal.subf_def]
  rfl

/-- The reference's row sums, read at an index, are the sums of the shifted exponentials from a zero start. -/
theorem v21_apply (x : FVec Ideal S64x64 .f32) (K : FVec Ideal S65536x64 .f32) (b : Fin 64) :
    val_main_v21 (F := Ideal) x K (ix1 b) = rtotal x K (shift x K) b := by
  have e : ∀ k : Fin 65536, idx_main_v21 (ix1 b) k = ix2 b k := fun k =>
    funext fun a => Fin.ext (by match a with | ⟨0, _⟩ => rfl | ⟨1, _⟩ => rfl)
  rw [val_main_v21_apply, val_main_cst_3_apply]
  simp only [e, v20_apply, Ideal.ofBits_def, Ideal.ofBits_zero_f32]
  rfl

/-- The reference's weights are the reference arrangement's at its own shift. -/
theorem v24_eq (x : FVec Ideal S64x64 .f32) (K : FVec Ideal S65536x64 .f32) :
    val_main_v24 (F := Ideal) x K = rweights x K (shift x K) := by
  funext i
  obtain ⟨b, m, rfl⟩ : ∃ (b : Fin 64) (m : Fin 65536), i = ix2 b m := ⟨i 0, i 1, eq_ix2 i⟩
  have e : idx_main_v22 (idx_main_v23 (ix2 b m)) = ix1 b :=
    funext fun a => Fin.ext (by match a with | ⟨0, _⟩ => rfl)
  rw [val_main_v24_apply, val_main_v23_apply, val_main_v22_apply, v20_apply, e, v21_apply, Ideal.hostDivf_def]
  rfl

/-- The reference's retrieved values are the reference arrangement's at its own shift. -/
theorem v25_eq (x : FVec Ideal S64x64 .f32) (K V : FVec Ideal S65536x64 .f32) :
    val_main_v25 (F := Ideal) x K V = rpred x K V (shift x K) := by
  funext i
  obtain ⟨b, d, rfl⟩ : ∃ (b : Fin 64) (d : Fin 64), i = ix2 b d := ⟨i 0, i 1, eq_ix2 i⟩
  have el : ∀ k : Fin 65536, lidx_main_v25 (ix2 b d) k = ix2 b k := fun k =>
    funext fun a => Fin.ext (by match a with | ⟨0, _⟩ => rfl | ⟨1, _⟩ => rfl)
  have er : ∀ k : Fin 65536, ridx_main_v25 (ix2 b d) k = ix2 k d := fun k =>
    funext fun a => Fin.ext (by match a with | ⟨0, _⟩ => rfl | ⟨1, _⟩ => rfl)
  rw [val_main_v25_apply, v24_eq]
  simp only [el, er]
  rfl

end Stages

/-- The reference's results are the reference arrangement at some real row shift (the row maxima of the logits). -/
theorem results_eq (x : FVec Ideal S64x64 .f32) (K : FVec Ideal S65536x64 .f32) (hx : IsReal x) (hK : IsReal K) :
    ∃ M : Fin 64 → EReal, (∀ b, ∃ r : ℝ, M b = (r : EReal))
      ∧ Cert.ReferenceIdeal.Read.val_main_v24 (F := Ideal) x K = rweights x K M
      ∧ ∀ V : FVec Ideal S65536x64 .f32, Cert.ReferenceIdeal.Read.val_main_v25 (F := Ideal) x K V = rpred x K V M :=
  ⟨shift x K, shift_real x K hx hK, v24_eq x K, fun V => v25_eq x K V⟩

end Cert.RefRead

end
-- ==== Proof.RefSide.lean ====
/-
  The reference's run with its two results at the Spec's functions: the generated run ends at the program's composed
  term, the Read module's last stages; those are the reference arrangement at the row maxima (RefRead), and for finite
  arguments the reference arrangement is the kernel's (SoftmaxLaw).
-/
import proofs.«109230_g9234179687032_cont_9to1c4b_825_2_alg».proof.Proof.RefRead
import proofs.«109230_g9234179687032_cont_9to1c4b_825_2_alg».proof.Proof.SoftmaxLaw

noncomputable section

namespace Cert.RefSide

open Cert.ReferenceIdeal Cert.ReferenceIdeal.Gen Idealize.ShloMosaic Idealize.ShloMosaic.TcCoe Idealize.SL.Sem Cert.Spec

/-- Every weakly fair execution of the idealized reference, from finite arguments, terminates with its two results at
    the Spec's functions of the argument arrays, the arguments unchanged. -/
theorem run_spec (m : (ℓ : Loc nD τ sig) → Buf (Elt Ideal) ℓ) (ρ : Dev nD → PrngReg)
    (hreal : ∀ c : Dev nD, IsReal (S := S64x64) (m ((c.tc : Thread nD τ).loc main_arg0)) ∧ IsReal (S := S65536x64) (m ((c.tc : Thread nD τ).loc main_arg1)) ∧ IsReal (S := S65536x64) (m ((c.tc : Thread nD τ).loc main_arg2))) :
    θ_run defs (onTc (τ := τ) (main (F := Ideal))) ⟨m, fun _ => 0, ρ⟩ (fun r => ∀ c : Dev nD,
      r.2.mem ((c.tc : Thread nD τ).loc main_v25) = Cert.Spec.pred (m ((c.tc : Thread nD τ).loc main_arg0)) (m ((c.tc : Thread nD τ).loc main_arg1)) (m ((c.tc : Thread nD τ).loc main_arg2))
      ∧ r.2.mem ((c.tc : Thread nD τ).loc main_v24) = Cert.Spec.weights (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨hx, hK, hV⟩ := hreal c
    obtain ⟨M, hM, h24, h25⟩ := Cert.RefRead.results_eq _ _ hx hK
    refine ⟨(h c).1.trans ?_, (h c).2.1.trans ?_, (h c).2.2⟩
    · rw [Cert.ReferenceIdeal.Read.val_main_v25_eq, h25]
      exact rpred_eq _ _ _ hx hK hV M hM
    · rw [Cert.ReferenceIdeal.Read.val_main_v24_eq, h24]
      exact rweights_eq _ _ hx hK M hM) (Cert.ReferenceIdeal.Value.run (F := Ideal) m ρ)

end Cert.RefSide

end
-- ==== Proof.Finite.lean ====
/-
  The precondition read: when the printed predicate (|a| < +inf at every entry of each argument, all three
  conjoined) is all ones, every entry of every argument is a real number.
-/
import proofs.«109230_g9234179687032_cont_9to1c4b_825_2_alg».proof.Pre_finite_inputs
import proofs.«109230_g9234179687032_cont_9to1c4b_825_2_alg».proof.Proof.Gen.Pre_finite_inputs
import proofs.«109230_g9234179687032_cont_9to1c4b_825_2_alg».proof.Proof.Spec
import Idealize.ShloMosaic.Lib.ReduceAll

noncomputable section

namespace Cert.Finite

open Idealize.ShloMosaic Idealize.ShloMosaic.ValueIdx Cert.Spec

/-- The word 0x7F800000 denotes +∞. -/
theorem ofBits_inf : Ideal.ofBits .f32 0x7F800000#32 = (⊤ : EReal) := by
  simp [Ideal.ofBits, Ideal.ieee]

/-- An extended real whose absolute value max a (-a) compares strictly below +∞ is a real number: at -∞ and at +∞
    the absolute value is +∞ itself, and +∞ < +∞ fails. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- The printed precondition, all ones, makes every entry of the three arguments a real number. -/
theorem of_fn [Cert.Pre_finite_inputs.Facts] (x : FVec Ideal Cert.Pre_finite_inputs.S64x64 .f32)
    (k v : FVec Ideal Cert.Pre_finite_inputs.S65536x64 .f32)
    (h : Cert.Pre_finite_inputs.fn (F := Ideal) x k v = fun _ => 1#1) :
    IsReal x ∧ IsReal k ∧ IsReal v := by
  -- the result has a single index: its index type has no coordinates to differ in
  haveI : Subsingleton Cert.Pre_finite_inputs.S_.Idx := ⟨fun a b => funext fun d => d.elim0⟩
  -- the predicate at its one index is the conjunction of the three all-entries tests
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  -- each test being one puts |a i| < +∞ at every entry i of its argument
  refine ⟨fun i => ?_, fun i => ?_, fun i => ?_⟩
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.Finite

end
-- ==== Proof.lean ====
/-
  The certificate's five claims for the cosine-similarity memory retrieval kernel against its jnp reference.

  Both programs compute, for 64 queries x, 65536 keys K and values V,
    w[b,m] = exp(l[b,m]) / Σ_m' exp(l[b,m']),   pred[b,d] = Σ_m w[b,m] · V[m,d],
  with l the cosine similarity scaled by 10 (the product of norms floored at 1e-8). The kernel streams the tables in 16
  tiles of 4096 rows: a first phase stores each tile's exponentials and accumulates their row sums and their products
  with the value tiles, a second phase scales the stored exponentials and the accumulated values by one over the row
  sums. The reference subtracts each row's maximum before exponentiating and divides entry by entry. Over finite
  arguments the two are one function (SoftmaxLaw); the kernel's frame and values are read off its run point by point
  (KI/…, and KB/… for the word-level program), the reference's off its generated run (RefSide).
-/
import proofs.«109230_g9234179687032_cont_9to1c4b_825_2_alg».proof.Defs
import proofs.«109230_g9234179687032_cont_9to1c4b_825_2_alg».proof.Proof.Gen.Kernel
import proofs.«109230_g9234179687032_cont_9to1c4b_825_2_alg».proof.Proof.Gen.KernelIdeal
import proofs.«109230_g9234179687032_cont_9to1c4b_825_2_alg».proof.Proof.Gen.ReferenceIdeal
import proofs.«109230_g9234179687032_cont_9to1c4b_825_2_alg».proof.Proof.Gen.Pre_finite_inputs
import proofs.«109230_g9234179687032_cont_9to1c4b_825_2_alg».proof.Proof.Gen.ReferenceIdeal.Run
import proofs.«109230_g9234179687032_cont_9to1c4b_825_2_alg».proof.Proof.Gen.ReferenceIdeal.Read
import proofs.«109230_g9234179687032_cont_9to1c4b_825_2_alg».proof.Proof.KB.Frame
import proofs.«109230_g9234179687032_cont_9to1c4b_825_2_alg».proof.Proof.KI.Final
import proofs.«109230_g9234179687032_cont_9to1c4b_825_2_alg».proof.Proof.RefSide
import proofs.«109230_g9234179687032_cont_9to1c4b_825_2_alg».proof.Proof.Finite

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Body.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

/-- The idealized reference runs and leaves its arguments unchanged: its generated run with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the finite arguments both idealized programs end with the retrieved values and the
    softmax weights of the Spec module. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, _, Cert.KernelIdeal.Body.run_value m ρ, ?_⟩
  have hreal : ∀ c : Dev Cert.ReferenceIdeal.nD,
      Cert.Spec.IsReal (S := Cert.ReferenceIdeal.S64x64) (m' ((c.tc : Thread Cert.ReferenceIdeal.nD Cert.ReferenceIdeal.τ).loc Cert.ReferenceIdeal.main_arg0))
      ∧ Cert.Spec.IsReal (S := Cert.ReferenceIdeal.S65536x64) (m' ((c.tc : Thread Cert.ReferenceIdeal.nD Cert.ReferenceIdeal.τ).loc Cert.ReferenceIdeal.main_arg1))
      ∧ Cert.Spec.IsReal (S := Cert.ReferenceIdeal.S65536x64) (m' ((c.tc : Thread Cert.ReferenceIdeal.nD Cert.ReferenceIdeal.τ).loc Cert.ReferenceIdeal.main_arg2)) := by
    intro c
    rw [(hagree c).1, (hagree c).2.1, (hagree c).2.2]
    exact Cert.Finite.of_fn _ _ _ (hpre c)
  refine (θ_run Cert.ReferenceIdeal.defs _ _).mono (fun r h c => ⟨(h c).1.trans ?_, (h c).2.1.trans ?_, (h c).2.2⟩)
    (Cert.RefSide.run_spec m' ρ' hreal)
  · rw [(hagree c).1, (hagree c).2.1, (hagree c).2.2]
  · rw [(hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
